-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S2x800000 : Shape := ⟨2, ![2, 800000]⟩
abbrev S100x16 : Shape := ⟨2, ![100, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S100x16 : S_.BroadcastsInDim S100x16 (![] : Fin 0 → Fin S100x16.rank)
  reducesTo_S100x16_S_d0_1 : S100x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x100 .f32) (main_arg1 : IVec S2x800000 32) (main_arg2 : FVec F S100x16 .f32) (main_arg3 : FVec F S16 .f32) (main_arg4 : FVec F S16x40 .f32) (main_arg5 : FVec F S40 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S100x16 .f32 := Host.absf main_arg2
  let main_cst_0 : FVec F S_ .f32 := constant S_ .f32 0x7F800000#32
  let main_v5 : FVec F S100x16 .f32 := broadcastInDim S100x16 ![] bcast_S_S100x16 main_cst_0
  let main_v6 : IVec S100x16 1 := cmpf .olt main_v4 main_v5
  let main_c_1 : IVec S_ 1 := constantI S_ 1 1#1
  let main_v7 : IVec S_ 1 := (fun x v => Host.reduce IntOp.andi x v reducesTo_S100x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S50000x100 : Shape := ⟨2, ![50000, 100]⟩
abbrev S2x800000 : Shape := ⟨2, ![2, 800000]⟩
abbrev S100x16 : Shape := ⟨2, ![100, 16]⟩
abbrev S16 : Shape := ⟨1, ![16]⟩
abbrev S16x40 : Shape := ⟨2, ![16, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x16 : Shape := ⟨2, ![50000, 16]⟩
abbrev S5000x100 : Shape := ⟨2, ![5000, 100]⟩
abbrev S5000x16 : Shape := ⟨2, ![5000, 16]⟩
abbrev S800000x16 : Shape := ⟨2, ![800000, 16]⟩
abbrev S1x16 : Shape := ⟨2, ![1, 16]⟩
abbrev S50000x40 : Shape := ⟨2, ![50000, 40]⟩
abbrev S5000x1 : Shape := ⟨2, ![5000, 1]⟩
abbrev S5000x40 : Shape := ⟨2, ![5000, 40]⟩
abbrev S800000x40 : Shape := ⟨2, ![800000, 40]⟩
abbrev S1x40 : Shape := ⟨2, ![1, 40]⟩
abbrev S5000 : Shape := ⟨1, ![5000]⟩

abbrev nBuf : Space → Nat
  | .hbm => 48
  | .vmem => 20
  | .smem => 0
  | _ => 0

abbrev bufTy : (tb : Table) → Fin (tcTables nBuf tb) → BufTy
  | .hbm, ⟨0, _⟩ => ⟨S50000x100, .f32⟩
  | .hbm, ⟨1, _⟩ => ⟨S2x800000, .i32⟩
  | .hbm, ⟨2, _⟩ => ⟨S100x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S50000x1, .f32⟩
  | .hbm, ⟨17, _⟩ => ⟨S50000x16, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x16, .f32⟩
  | .hbm, ⟨27, _⟩ => ⟨S_, .f32⟩
  | .hbm, ⟨28, _⟩ => ⟨S50000x16, .f32⟩
  | .hbm, ⟨29, _⟩ => ⟨S800000x1, .i32⟩
  | .hbm, ⟨30, _⟩ => ⟨S50000x16, .f32⟩
  | .hbm, ⟨31, _⟩ => ⟨S1x16, .f32⟩
  | .hbm, ⟨32, _⟩ => ⟨S50000x40, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x40, .f32⟩
  | .hbm, ⟨42, _⟩ => ⟨S_, .f32⟩
  | .hbm, ⟨43, _⟩ => ⟨S50000x40, .f32⟩
  | .hbm, ⟨44, _⟩ => ⟨S800000x1, .i32⟩
  | .hbm, ⟨45, _⟩ => ⟨S50000x40, .f32⟩
  | .hbm, ⟨46, _⟩ => ⟨S1x40, .f32⟩
  | .hbm, ⟨47, _⟩ => ⟨S50000x40, .f32⟩
  | .local _ .vmem, ⟨0, _⟩ => ⟨S5000x100, .f32⟩
  | .local _ .vmem, ⟨1, _⟩ => ⟨S5000x100, .f32⟩
  | .local _ .vmem, ⟨2, _⟩ => ⟨S100x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S5000x1, .f32⟩
  | .local _ .vmem, ⟨8, _⟩ => ⟨S5000x1, .f32⟩
  | .local _ .vmem, ⟨9, _⟩ => ⟨S1x16, .f32⟩
  | .local _ .vmem, ⟨10, _⟩ => ⟨S16x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | .local _ .vmem, ⟨14, _⟩ => ⟨S5000x40, .f32⟩
  | .local _ .vmem, ⟨15, _⟩ => ⟨S5000x1, .f32⟩
  | .local _ .vmem, ⟨16, _⟩ => ⟨S5000x1, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x16_S100x16_0_0 : ∀ a, (![0, 0] : Fin 2 → Nat) a + S100x16.size a ≤ S100x16.size a
  h_S100x16 : 0 < S100x16.numel
  inb_S5000x16_S5000x16_0_0 : ∀ a, (![0, 0] : Fin 2 → Nat) a + S5000x16.size a ≤ S5000x16.size a
  h_S5000x16 : 0 < S5000x16.numel
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x40_S16x40_0_0 : ∀ a, (![0, 0] : Fin 2 → Nat) a + S16x40.size a ≤ S16x40.size a
  h_S16x40 : 0 < S16x40.numel
  broadcasts_S5000x1_S5000x16 : S5000x1.Broadcasts S5000x16
  broadcasts_S1x16_S5000x16 : S1x16.Broadcasts S5000x16
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S5000x1_S5000x40 : S5000x1.Broadcasts S5000x40
  broadcasts_S1x40_S5000x40 : S1x40.Broadcasts S5000x40
  reduces_S5000x40_S5000 : S5000x40.Reduces [1] S5000
  shapeCasts_S5000_S5000x1 : S5000.ShapeCasts S5000x1
  scatter_S50000_S800000x1_S800000_n_0_0_1_wf : ScatterDims.WF S50000 S800000x1 S800000 [] [0] [0] 1
  dot_S5000x100_S100x16_S5000x16_1_0_0_1_n_n_wf : DotDims.WF S5000x100 S100x16 S5000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S5000x16_S16x40_S5000x40_1_0_0_1_n_n_wf : DotDims.WF S5000x16 S16x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S50000x100.size a
  hwx0_0 : ∀ i : grid0.Coords, EltTy.bits .f32 = 32 ∨ (Rect.block (s := S50000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x16.size a ≤ S100x16.size a
  hwx0_1 : ∀ i : grid0.Coords, EltTy.bits .f32 = 32 ∨ (Rect.block (s := S100x16) S100x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S50000x16.size a
  hwx0_2 : ∀ i : grid0.Coords, EltTy.bits .f32 = 32 ∨ (Rect.block (s := S50000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x40.size a ≤ S16x40.size a
  hwx1_3 : ∀ i : grid1.Coords, EltTy.bits .f32 = 32 ∨ (Rect.block (s := S16x40) S16x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S50000x40.size a
  hwx1_4 : ∀ i : grid1.Coords, EltTy.bits .f32 = 32 ∨ (Rect.block (s := S50000x40) S5000x40.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x100_S100x16_S5000x16_1_0_0_1_n_n : DotDims S5000x100 S100x16 S5000x16 where
  lhsContracting := [1]
  rhsContracting := [0]
  lhsNonContracting := [0]
  rhsNonContracting := [1]
  lhsBatch := []
  rhsBatch := []
  wf := dot_S5000x100_S100x16_S5000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S100x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v31) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x100 : Shape := ⟨2, ![50000, 100]⟩
abbrev S2x800000 : Shape := ⟨2, ![2, 800000]⟩
abbrev S100x16 : Shape := ⟨2, ![100, 16]⟩
abbrev S16 : Shape := ⟨1, ![16]⟩
abbrev S16x40 : Shape := ⟨2, ![16, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x100 : Shape := ⟨2, ![800000, 100]⟩
abbrev S50000 : Shape := ⟨1, ![50000]⟩
abbrev S50000x1 : Shape := ⟨2, ![50000, 1]⟩
abbrev S50000x16 : Shape := ⟨2, ![50000, 16]⟩
abbrev S1x16 : Shape := ⟨2, ![1, 16]⟩
abbrev S800000x16 : Shape := ⟨2, ![800000, 16]⟩
abbrev S50000x40 : Shape := ⟨2, ![50000, 40]⟩
abbrev S1x40 : Shape := ⟨2, ![1, 40]⟩

abbrev nBuf : Space → Nat
  | .hbm => 86
  | .vmem => 0
  | .smem => 0
  | _ => 0

abbrev bufTy : (tb : Table) → Fin (tcTables nBuf tb) → BufTy
  | .hbm, ⟨0, _⟩ => ⟨S50000x100, .f32⟩
  | .hbm, ⟨1, _⟩ => ⟨S2x800000, .i32⟩
  | .hbm, ⟨2, _⟩ => ⟨S100x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x100, .f32⟩
  | .hbm, ⟨19, _⟩ => ⟨S_, .f32⟩
  | .hbm, ⟨20, _⟩ => ⟨S50000x100, .f32⟩
  | .hbm, ⟨21, _⟩ => ⟨S800000x1, .i32⟩
  | .hbm, ⟨22, _⟩ => ⟨S50000x100, .f32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x100, .f32⟩
  | .hbm, ⟨34, _⟩ => ⟨S50000x100, .f32⟩
  | .hbm, ⟨35, _⟩ => ⟨S50000x16, .f32⟩
  | .hbm, ⟨36, _⟩ => ⟨S1x16, .f32⟩
  | .hbm, ⟨37, _⟩ => ⟨S50000x16, .f32⟩
  | .hbm, ⟨38, _⟩ => ⟨S50000x16, .f32⟩
  | .hbm, ⟨39, _⟩ => ⟨S_, .f32⟩
  | .hbm, ⟨40, _⟩ => ⟨S50000x16, .f32⟩
  | .hbm, ⟨41, _⟩ => ⟨S50000x16, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x16, .f32⟩
  | .hbm, ⟨51, _⟩ => ⟨S_, .f32⟩
  | .hbm, ⟨52, _⟩ => ⟨S50000x16, .f32⟩
  | .hbm, ⟨53, _⟩ => ⟨S800000x1, .i32⟩
  | .hbm, ⟨54, _⟩ => ⟨S50000x16, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x16, .f32⟩
  | .hbm, ⟨66, _⟩ => ⟨S50000x16, .f32⟩
  | .hbm, ⟨67, _⟩ => ⟨S50000x40, .f32⟩
  | .hbm, ⟨68, _⟩ => ⟨S1x40, .f32⟩
  | .hbm, ⟨69, _⟩ => ⟨S50000x40, .f32⟩
  | .hbm, ⟨70, _⟩ => ⟨S50000x40, .f32⟩
  | .hbm, ⟨71, _⟩ => ⟨S_, .f32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x40, .f32⟩
  | .hbm, ⟨78, _⟩ => ⟨S50000x40, .f32⟩
  | .hbm, ⟨79, _⟩ => ⟨S50000x40, .f32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S50000x1, .f32⟩
  | .hbm, ⟨84, _⟩ => ⟨S50000x40, .f32⟩
  | .hbm, ⟨85, _⟩ => ⟨S50000x40, .f32⟩
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_call1_cst_0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_cst_1 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_v51 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x100 : S_.BroadcastsInDim S50000x100 (![] : Fin 0 → Fin S50000x100.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x100_0_1 : S50000x1.BroadcastsInDim S50000x100 (![0, 1] : Fin 2 → Fin S50000x100.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  scatter_S50000_S800000x1_S800000_n_0_0_1_wf : ScatterDims.WF S50000 S800000x1 S800000 [] [0] [0] 1
  dot_S50000x100_S100x16_S50000x16_1_0_0_1_n_n_wf : DotDims.WF S50000x100 S100x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x16_S16x40_S50000x40_1_0_0_1_n_n_wf : DotDims.WF S50000x16 S16x40 S50000x40 [1] [0] [0] [1] [] []

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x100_S100x16_S50000x16_1_0_0_1_n_n : DotDims S50000x100 S100x16 S50000x16 where
  lhsContracting := [1]
  rhsContracting := [0]
  lhsNonContracting := [0]
  rhsNonContracting := [1]
  lhsBatch := []
  rhsBatch := []
  wf := dot_S50000x100_S100x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x16_S16x40_S50000x40_1_0_0_1_n_n : DotDims S50000x16 S16x40 S50000x40 where
  lhsContracting := [1]
  rhsContracting := [0]
  lhsNonContracting := [0]
  rhsNonContracting := [1]
  lhsBatch := []
  rhsBatch := []
  wf := dot_S50000x16_S16x40_S50000x40_1_0_0_1_n_n_wf

class Facts : Prop extends Facts₀ where

variable [Facts]
-- ==== Proof.KFold.lean ====
/-
  The buffers at the boundaries between the host stretches and the regions, read back to the launch arrays.

  Each host stretch is read as pure operations of the contents it starts from: the destination and source words of
  the edges and the degree column from the edge list; each aggregate as the gather of the previous region's output at
  the source column accumulated at the destination column; each bias as the vector laid out as one row. A region leaves
  every array but its output as it found it, so the degree column and the two rows of edge words reach every later
  stretch unchanged.
-/
import proofs.«158554_j82016695484547_1_alg».proof.Proof.Gen.KernelIdeal.Frame
import Idealize.ShloMosaic.Lib.StableHlo.Run
import Idealize.ShloMosaic.PureOps.Ideal.Laws
import Idealize.ShloMosaic.Lib.ValueIdx

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

/-! ## The host stretches, from any contents -/

section Stretches
variable (W : Valuation τ sig (Elt Ideal))

/-- The source words as a column, from the vector of source words: a negative word increased by 50000. -/
def srcColOf (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The destination words as a column, from the vector of destination words. -/
def dstColOf (v : IVec S800000 32) : IVec S800000x1 32 :=
  broadcastInDim S800000x1 ![0] bcast_S800000_S800000x1_0 v

theorem s0_v1 : (after hostOps0 W (Proc.devRef .tc main_v1) : IVec S800000 32)
    = shapeCast S800000 (extractStridedSlice S1x800000 ![0, 0] (W (Proc.devRef .tc main_arg1)) slices_S2x800000_S1x800000_0_0) shapeCasts_S1x800000_S800000 := by
  after_results; rfl

theorem s0_v3 : (after hostOps0 W (Proc.devRef .tc main_v3) : IVec S800000 32)
    = shapeCast S800000 (extractStridedSlice S1x800000 ![1, 0] (W (Proc.devRef .tc main_arg1)) slices_S2x800000_S1x800000_1_0) shapeCasts_S1x800000_S800000 := by
  after_results; rfl

theorem s0_v8 : @Eq (FVec Ideal S50000x1 .f32) (after hostOps0 W (Proc.devRef .tc main_v8))
    (shapeCast S50000x1 (Host.scatterAdd scatter_S50000_S800000x1_S800000_n_0_0_1
        (broadcastInDim S50000 ![] bcast_S_S50000 (constant S_ .f32 0x00000000#32))
        (dstColOf (shapeCast S800000 (extractStridedSlice S1x800000 ![1, 0] (W (Proc.devRef .tc main_arg1)) slices_S2x800000_S1x800000_1_0) shapeCasts_S1x800000_S800000))
        (broadcastInDim S800000 ![] bcast_S_S800000 (constant S_ .f32 0x3F800000#32))) shapeCasts_S50000_S50000x1) := by
  after_results; rfl

theorem s1_v19 : @Eq (FVec Ideal S50000x16 .f32) (after hostOps1 W (Proc.devRef .tc main_v19))
    (Host.scatterAdd scatter_S50000x16_S800000x1_S800000x16_1_0_0_1
        (broadcastInDim S50000x16 ![] bcast_S_S50000x16 (constant S_ .f32 0x00000000#32))
        (dstColOf (W (Proc.devRef .tc main_v3)))
        (Host.gather gather_S50000x16_S800000x1_S800000x16_1_0_n_n_0_1_116 (W (Proc.devRef .tc main_v9))
          (srcColOf (W (Proc.devRef .tc main_v1))))) := by
  after_results; rfl

theorem s1_v20 : @Eq (FVec Ideal S1x16 .f32) (after hostOps1 W (Proc.devRef .tc main_v20))
    (shapeCast S1x16 (W (Proc.devRef .tc main_arg3)) shapeCasts_S16_S1x16) := by
  after_results; rfl

theorem s2_v31 : @Eq (FVec Ideal S50000x40 .f32) (after hostOps2 W (Proc.devRef .tc main_v31))
    (Host.scatterAdd scatter_S50000x40_S800000x1_S800000x40_1_0_0_1
        (broadcastInDim S50000x40 ![] bcast_S_S50000x40 (constant S_ .f32 0x00000000#32))
        (dstColOf (W (Proc.devRef .tc main_v3)))
        (Host.gather gather_S50000x40_S800000x1_S800000x40_1_0_n_n_0_1_140 (W (Proc.devRef .tc main_v21))
          (srcColOf (W (Proc.devRef .tc main_v1))))) := by
  after_results; rfl

theorem s2_v32 : @Eq (FVec Ideal S1x40 .f32) (after hostOps2 W (Proc.devRef .tc main_v32))
    (shapeCast S1x40 (W (Proc.devRef .tc main_arg5)) shapeCasts_S40_S1x40) := by
  after_results; rfl

end Stretches

/-! ## The boundaries' contents, read back to the launch arrays -/

section Chain

open Idealize.ShloMosaic.ValueIdx

variable (m : (ℓ : Loc nD τ sig) → Buf (Elt Ideal) ℓ) (ρ : Dev nD → PrngReg) (c : Dev nD)

/-- A host stretch leaves a buffer none of its operations writes as it was. -/
macro "host_keeps" : tactic =>
  `(tactic| (refine StableHlo.after_of_forall_not_mem _ _ (List.forall_iff_forall_mem.mp ?_)
             simp only [hostOps0, hostOps1, hostOps2, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The vector of source words. -/
def srcV : IVec S800000 32 :=
  shapeCast S800000 (extractStridedSlice S1x800000 ![0, 0] (m ((c : Thread nD τ).loc main_arg1)) slices_S2x800000_S1x800000_0_0) shapeCasts_S1x800000_S800000

/-- The vector of destination words. -/
def dstV : IVec S800000 32 :=
  shapeCast S800000 (extractStridedSlice S1x800000 ![1, 0] (m ((c : Thread nD τ).loc main_arg1)) slices_S2x800000_S1x800000_1_0) shapeCasts_S1x800000_S800000

/-- The degree column. -/
def degCol : FVec Ideal S50000x1 .f32 :=
  shapeCast S50000x1 (Host.scatterAdd scatter_S50000_S800000x1_S800000_n_0_0_1
      (broadcastInDim S50000 ![] bcast_S_S50000 (constant S_ .f32 0x00000000#32))
      (dstColOf (dstV m c))
      (broadcastInDim S800000 ![] bcast_S_S800000 (constant S_ .f32 0x3F800000#32))) shapeCasts_S50000_S50000x1

/-! ### After the first stretch -/

theorem w1_v1 : (W1 m ρ c (Proc.devRef .tc main_v1) : IVec S800000 32) = srcV m c := s0_v1 (W0 m ρ c)
theorem w1_v3 : (W1 m ρ c (Proc.devRef .tc main_v3) : IVec S800000 32) = dstV m c := s0_v3 (W0 m ρ c)
theorem w1_v8 : (W1 m ρ c (Proc.devRef .tc main_v8) : FVec Ideal S50000x1 .f32) = degCol m c := s0_v8 (W0 m ρ c)
theorem w1_arg0 : W1 m ρ c (Proc.devRef .tc main_arg0) = m ((c : Thread nD τ).loc main_arg0) := by
  show StableHlo.after hostOps0 (W0 m ρ c) (Proc.devRef .tc main_arg0) = W0 m ρ c (Proc.devRef .tc main_arg0); host_keeps
theorem w1_arg2 : W1 m ρ c (Proc.devRef .tc main_arg2) = m ((c : Thread nD τ).loc main_arg2) := by
  show StableHlo.after hostOps0 (W0 m ρ c) (Proc.devRef .tc main_arg2) = W0 m ρ c (Proc.devRef .tc main_arg2); host_keeps
theorem w1_arg3 : W1 m ρ c (Proc.devRef .tc main_arg3) = m ((c : Thread nD τ).loc main_arg3) := by
  show StableHlo.after hostOps0 (W0 m ρ c) (Proc.devRef .tc main_arg3) = W0 m ρ c (Proc.devRef .tc main_arg3); host_keeps
theorem w1_arg4 : W1 m ρ c (Proc.devRef .tc main_arg4) = m ((c : Thread nD τ).loc main_arg4) := by
  show StableHlo.after hostOps0 (W0 m ρ c) (Proc.devRef .tc main_arg4) = W0 m ρ c (Proc.devRef .tc main_arg4); host_keeps
theorem w1_arg5 : W1 m ρ c (Proc.devRef .tc main_arg5) = m ((c : Thread nD τ).loc main_arg5) := by
  show StableHlo.after hostOps0 (W0 m ρ c) (Proc.devRef .tc main_arg5) = W0 m ρ c (Proc.devRef .tc main_arg5); host_keeps

/-! ### After region 0 -/

theorem w2_v1 : (W2 m ρ c (Proc.devRef .tc main_v1) : IVec S800000 32) = srcV m c :=
  (W2_of_ne m ρ c main_v1 (by decide)).trans (w1_v1 m ρ c)
theorem w2_v3 : (W2 m ρ c (Proc.devRef .tc main_v3) : IVec S800000 32) = dstV m c :=
  (W2_of_ne m ρ c main_v3 (by decide)).trans (w1_v3 m ρ c)
theorem w2_v8 : (W2 m ρ c (Proc.devRef .tc main_v8) : FVec Ideal S50000x1 .f32) = degCol m c :=
  (W2_of_ne m ρ c main_v8 (by decide)).trans (w1_v8 m ρ c)
theorem w2_arg3 : W2 m ρ c (Proc.devRef .tc main_arg3) = m ((c : Thread nD τ).loc main_arg3) :=
  (W2_of_ne m ρ c main_arg3 (by decide)).trans (w1_arg3 m ρ c)
theorem w2_arg4 : W2 m ρ c (Proc.devRef .tc main_arg4) = m ((c : Thread nD τ).loc main_arg4) :=
  (W2_of_ne m ρ c main_arg4 (by decide)).trans (w1_arg4 m ρ c)
theorem w2_arg5 : W2 m ρ c (Proc.devRef .tc main_arg5) = m ((c : Thread nD τ).loc main_arg5) :=
  (W2_of_ne m ρ c main_arg5 (by decide)).trans (w1_arg5 m ρ c)

end Chain

end Cert.KernelIdeal.Fold

end
-- ==== Proof.Spec.lean ====
/-
  The two-layer mean-aggregation network over a graph, index by index on the extended reals.

  A graph of 50000 nodes has 800000 edges; edge e carries a source word and a destination word. Edge e
  reads node row r(e): its source word, increased by 50000 when negative, read signed and clamped into [0, 49999].
  Edge e lands on node n when its destination word, read signed, is n; an edge whose destination is no node lands nowhere.
  The aggregate of a table T at (n, j) is the sum over the edges that land on n of T(r(e), j); the degree of n counts
  those edges, and the mean divides by the degree raised to at least one.

  One program applies each layer's matrix to the node rows BEFORE aggregating and divides afterwards (`KV`); the other
  aggregates, divides, and then applies the matrix (`RV`). A layer is linear in the rows, the aggregate is a finite sum
  and the divisor is a real number not below one, so on finite inputs the two orders give the same real number: the
  sum over the edges and the sum over the contracted coordinate exchange, and the division by a nonzero real distributes
  over both. The closing row-wise log-softmax is one function of the rows on both sides.
-/
import Idealize.ShloMosaic.PureOps.Ideal.Laws
import Idealize.ShloMosaic.Lib.ValueIdx

noncomputable section

open scoped BigOperators

namespace Cert.Sage

open Idealize.ShloMosaic Idealize.ShloMosaic.ValueIdx

/-- The edge list: row 0 the source words, row 1 the destination words. -/
abbrev Edges : Type := IVec ⟨2, ![2, 800000]⟩ 32

/-- The source word of edge e after the wrap of a negative index: the word plus 50000 when it is negative. -/
def srcWord (ei : Edges) (e : Fin 800000) : BitVec 32 :=
  Scalar.select (IntOp.cmpi .slt (ei (ix2 (0 : Fin 2) e)) 0#32) (IntOp.addi (ei (ix2 (0 : Fin 2) e)) 50000#32)
    (ei (ix2 (0 : Fin 2) e))

/-- The node row edge e reads: its wrapped source word read signed and clamped into [0, 49999]. -/
def srcRow (ei : Edges) (e : Fin 800000) : Fin 50000 :=
  ⟨min (srcWord ei e).toInt.toNat (50000 - 1), by omega⟩

/-- Edge e lands on node n: its destination word, read signed, is n. -/
def hit (ei : Edges) (n : Fin 50000) (e : Fin 800000) : Prop :=
  (ei (ix2 (1 : Fin 2) e)).toInt = (n.val : ℤ)

instance (ei : Edges) (n : Fin 50000) (e : Fin 800000) : Decidable (hit ei n e) := by
  unfold hit; infer_instance

/-- The aggregate of a table at (n, j): zero plus the sum, over the edges landing on n, of the table at (r(e), j). -/
def agg {C : ℕ} (ei : Edges) (T : Fin 50000 → Fin C → EReal) (n : Fin 50000) (j : Fin C) : EReal :=
  0 + ∑ e : Fin 800000, if hit ei n e then T (srcRow ei e) j else 0

/-- The degree of node n: zero plus one for every edge landing on it. -/
def deg (ei : Edges) (n : Fin 50000) : EReal :=
  0 + ∑ e : Fin 800000, if hit ei n e then (1 : EReal) else 0

/-- The divisor of the mean: the degree, raised to at least one. -/
def dmax (ei : Edges) (n : Fin 50000) : EReal := max (deg ei n) 1

/-- The rows of A times the matrix W. -/
def lin {K J : ℕ} (A : Fin 50000 → Fin K → EReal) (W : Fin K → Fin J → EReal) (n : Fin 50000) (j : Fin J) : EReal :=
  ∑ k : Fin K, A n k * W k j

/-- The log-softmax of one row of 40 entries: with m the row's maximum (the fold of max from minus infinity) and
    z = h − m, the entry z(j) minus the logarithm of the sum of the exponentials of z. -/
def lsm (h : Fin 40 → EReal) (j : Fin 40) : EReal :=
  (h j - (Finset.univ : Finset (Fin 40)).fold max (Ideal.ofBits .f32 0xFF800000#32) h)
    - Ideal.log (∑ l : Fin 40, Ideal.exp (h l - (Finset.univ : Finset (Fin 40)).fold max (Ideal.ofBits .f32 0xFF800000#32) h))

/-- The hidden layer when the matrix is applied first: relu of (aggregate of X·W1 over the mean's divisor, plus b1). -/
def hidK (ei : Edges) (X : Fin 50000 → Fin 100 → EReal) (W1 : Fin 100 → Fin 16 → EReal) (b1 : Fin 16 → EReal)
    (n : Fin 50000) (j : Fin 16) : EReal :=
  max (Ideal.div (agg ei (lin X W1) n j) (dmax ei n) + b1 j) 0

/-- The logits when the matrix is applied first. -/
def logitK (ei : Edges) (X : Fin 50000 → Fin 100 → EReal) (W1 : Fin 100 → Fin 16 → EReal) (b1 : Fin 16 → EReal)
    (W2 : Fin 16 → Fin 40 → EReal) (b2 : Fin 40 → EReal) (n : Fin 50000) (j : Fin 40) : EReal :=
  Ideal.div (agg ei (lin (hidK ei X W1 b1) W2) n j) (dmax ei n) + b2 j

/-- The network with each matrix applied before the aggregation. -/
def KV (ei : Edges) (X : Fin 50000 → Fin 100 → EReal) (W1 : Fin 100 → Fin 16 → EReal) (b1 : Fin 16 → EReal)
    (W2 : Fin 16 → Fin 40 → EReal) (b2 : Fin 40 → EReal) (n : Fin 50000) (j : Fin 40) : EReal :=
  lsm (logitK ei X W1 b1 W2 b2 n) j

/-- The mean of a table's rows over the edges landing on n. -/
def mean {C : ℕ} (ei : Edges) (T : Fin 50000 → Fin C → EReal) (n : Fin 50000) (k : Fin C) : EReal :=
  Ideal.div (agg ei T n k) (dmax ei n)

/-- The hidden layer when the matrix is applied last: relu of (mean of X, times W1, plus b1). -/
def hidR (ei : Edges) (X : Fin 50000 → Fin 100 → EReal) (W1 : Fin 100 → Fin 16 → EReal) (b1 : Fin 16 → EReal)
    (n : Fin 50000) (j : Fin 16) : EReal :=
  max (lin (mean ei X) W1 n j + b1 j) 0

/-- The logits when the matrix is applied last. -/
def logitR (ei : Edges) (X : Fin 50000 → Fin 100 → EReal) (W1 : Fin 100 → Fin 16 → EReal) (b1 : Fin 16 → EReal)
    (W2 : Fin 16 → Fin 40 → EReal) (b2 : Fin 40 → EReal) (n : Fin 50000) (j : Fin 40) : EReal :=
  lin (mean ei (hidR ei X W1 b1)) W2 n j + b2 j

/-- The network with each matrix applied after the aggregation and the division. -/
def RV (ei : Edges) (X : Fin 50000 → Fin 100 → EReal) (W1 : Fin 100 → Fin 16 → EReal) (b1 : Fin 16 → EReal)
    (W2 : Fin 16 → Fin 40 → EReal) (b2 : Fin 40 → EReal) (n : Fin 50000) (j : Fin 40) : EReal :=
  lsm (logitR ei X W1 b1 W2 b2 n) j

end Cert.Sage

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.KPay.lean ====
/-
  The three kernel bodies' stored values read at an entry, at the ideal values.

  Body 0 stores the product of a 5000×100 block with the 100×16 matrix. Body 1 divides a 5000×16 block row-wise by
  the row's divisor (the degree column raised to at least one), adds the bias row, takes the maximum with zero and
  multiplies by the 16×40 matrix. Body 2 divides a 5000×40 block row-wise by the same divisor, adds the bias row and
  takes the row-wise log-softmax. A change of float format is the identity at the ideal values.
-/
import proofs.«158554_j82016695484547_1_alg».proof.Proof.Gen.KernelIdeal.Skeleton
import proofs.«158554_j82016695484547_1_alg».proof.Proof.Spec
import proofs.«158554_j82016695484547_1_alg».proof.Proof.LibDenseLayer
import proofs.«158554_j82016695484547_1_alg».proof.Proof.LibRowOps

noncomputable section

open scoped BigOperators

namespace Cert.KernelIdeal.Pay

open Cert.KernelIdeal Cert.KernelIdeal.Gen Idealize.ShloMosaic Idealize.ShloMosaic.ValueIdx

/-! ## The shared pieces, over any block height and width -/

/-- The normalised, biased entry at (p, c): the block's entry over the row's divisor (the column's entry raised to at
    least one), plus the bias row's entry c. Casts to the same shape change nothing; the column is repeated along its
    row and the one bias row down the rows. -/
theorem pre_apply {a b : ℕ} (x : FVec Ideal ⟨2, ![a, b]⟩ .f32) (d : FVec Ideal ⟨2, ![a, 1]⟩ .f32)
    (r : FVec Ideal ⟨2, ![1, b]⟩ .f32)
    (hx : (⟨2, ![a, b]⟩ : Shape).ShapeCasts ⟨2, ![a, b]⟩) (hd : (⟨2, ![a, 1]⟩ : Shape).ShapeCasts ⟨2, ![a, 1]⟩)
    (hr : (⟨2, ![1, b]⟩ : Shape).ShapeCasts ⟨2, ![1, b]⟩)
    (hb1 : (⟨2, ![a, 1]⟩ : Shape).Broadcasts ⟨2, ![a, b]⟩) (hb2 : (⟨2, ![1, b]⟩ : Shape).Broadcasts ⟨2, ![a, b]⟩)
    (p : Fin a) (c : Fin b) :
    addf (divf (shapeCast ⟨2, ![a, b]⟩ x hx)
          (broadcastTo ⟨2, ![a, b]⟩
            (maximumf (shapeCast ⟨2, ![a, 1]⟩ d hd)
              (broadcast ⟨2, ![a, 1]⟩ (Scalar.ofBits .f32 0x3F800000#32 : Ideal .f32))) hb1))
        (broadcastTo ⟨2, ![a, b]⟩ (shapeCast ⟨2, ![1, b]⟩ r hr) hb2) (ix2 p c)
      = Ideal.div (x (ix2 p c)) (max (d (ix2 p (0 : Fin 1))) 1) + r (ix2 (0 : Fin 1) c) := by
  rw [addf_apply, divf_apply, RowOps.broadcastTo_a1_ab_apply, broadcastTo_1b_ab_apply, maximumf_apply,
    shapeCast_self, shapeCast_self, shapeCast_self]
  show Ideal.div _ (max _ (Ideal.ofBits .f32 0x3F800000#32)) + _ = _
  rw [Ideal.ofBits_one_f32]

/-- The row-wise log-softmax of a block z of 40 columns at (p, q), when row p of z is the function h: the row's
    maximum (a reduction over the columns, viewed as a column and repeated along the row) is subtracted, and from that
    difference the logarithm of the row's sum of exponentials (reduced, viewed and repeated the same way). -/
theorem sm_apply {a : ℕ} (z : FVec Ideal ⟨2, ![a, 40]⟩ .f32)
    (hr : (⟨2, ![a, 40]⟩ : Shape).Reduces [1] ⟨1, ![a]⟩) (hc : (⟨1, ![a]⟩ : Shape).ShapeCasts ⟨2, ![a, 1]⟩)
    (hb : (⟨2, ![a, 1]⟩ : Shape).Broadcasts ⟨2, ![a, 40]⟩) (hφ : FKind.Formats .f32)
    (hm : (0xFF800000#32 : BitVec (FTy.bits .f32)) = FKind.maximumf.neutral .f32 hφ)
    (hs : (0x00000000#32 : BitVec (FTy.bits .f32)) = FKind.add.neutral .f32 hφ)
    (p : Fin a) (q : Fin 40) (h : Fin 40 → EReal) (hz : ∀ l, z (ix2 p l) = h l) :
    subf
        (subf z (broadcastTo ⟨2, ![a, 40]⟩
          (shapeCast ⟨2, ![a, 1]⟩ (multiReduction .maximumf [1] ⟨1, ![a]⟩ z 0xFF800000#32 hr hφ hm) hc) hb))
        (broadcastTo ⟨2, ![a, 40]⟩
          (log (shapeCast ⟨2, ![a, 1]⟩
            (multiReduction .add [1] ⟨1, ![a]⟩
              (exp (subf z (broadcastTo ⟨2, ![a, 40]⟩
                (shapeCast ⟨2, ![a, 1]⟩ (multiReduction .maximumf [1] ⟨1, ![a]⟩ z 0xFF800000#32 hr hφ hm) hc) hb)))
              0x00000000#32 hr hφ hs) hc)) hb) (ix2 p q)
      = Cert.Sage.lsm h q := by
  -- the row's maximum, read at any column of row p
  have hM : ∀ c : Fin 40,
      broadcastTo ⟨2, ![a, 40]⟩
          (shapeCast ⟨2, ![a, 1]⟩ (multiReduction .maximumf [1] ⟨1, ![a]⟩ z 0xFF800000#32 hr hφ hm) hc) hb (ix2 p c)
        = (Finset.univ : Finset (Fin 40)).fold max (Ideal.ofBits .f32 0xFF800000#32) h := by
    intro c
    rw [RowOps.broadcastTo_a1_ab_apply, RowOps.shapeCast_a_a1_apply, RowOps.multiReduction_maximumf_row]
    exact congrArg (fun f : Fin 40 → EReal => (Finset.univ : Finset (Fin 40)).fold max (Ideal.ofBits .f32 0xFF800000#32) f)
      (funext hz)
  -- the row minus its maximum, at any column of row p
  have hS : ∀ c : Fin 40,
      subf z (broadcastTo ⟨2, ![a, 40]⟩
          (shapeCast ⟨2, ![a, 1]⟩ (multiReduction .maximumf [1] ⟨1, ![a]⟩ z 0xFF800000#32 hr hφ hm) hc) hb) (ix2 p c)
        = h c - (Finset.univ : Finset (Fin 40)).fold max (Ideal.ofBits .f32 0xFF800000#32) h := by
    intro c
    rw [subf_apply, hM c, hz c]
  rw [subf_apply, hS q, RowOps.broadcastTo_a1_ab_apply]
  show _ - Ideal.log (shapeCast ⟨2, ![a, 1]⟩ _ hc (ix2 p (0 : Fin 1))) = _
  rw [RowOps.shapeCast_a_a1_apply, RowOps.multiReduction_add_row]
  unfold Cert.Sage.lsm
  refine congrArg (fun t : EReal => (h q - (Finset.univ : Finset (Fin 40)).fold max (Ideal.ofBits .f32 0xFF800000#32) h)
    - Ideal.log t) ?_
  refine Finset.sum_congr rfl fun l _ => ?_
  show Ideal.exp (subf z _ (ix2 p l)) = _
  rw [hS l]

/-! ## The three bodies -/

/-- Body 0's stored value at (p, q): row p of the block against column q of the matrix. -/
theorem pay0_apply (v0 : FVec Ideal S5000x100 .f32) (v2 : FVec Ideal S100x16 .f32) (p : Fin 5000) (q : Fin 16) :
    k0_pay1 (F := Ideal) v0 v2 (ix2 p q) = ∑ k : Fin 100, v0 (ix2 p k) * v2 (ix2 k q) := by
  unfold k0_pay1 dot_S5000x100_S100x16_S5000x16_1_0_0_1_n_n
  exact DenseLayer.matmul_rows_apply _ none (truncf .bf16 v0 bitsLt_bf16_f32) (truncf .bf16 v2 bitsLt_bf16_f32) p q

/-- Body 1's stored value at (p, q): the rectified, biased row mean against column q of the matrix. -/
theorem pay1_apply (v0 : FVec Ideal S5000x16 .f32) (v2 : FVec Ideal S5000x1 .f32) (v4 : FVec Ideal S1x16 .f32)
    (v6 : FVec Ideal S16x40 .f32) (p : Fin 5000) (q : Fin 40) :
    k1_pay1 (F := Ideal) v0 v2 v4 v6 (ix2 p q)
      = ∑ k : Fin 16, max (Ideal.div (v0 (ix2 p k)) (max (v2 (ix2 p (0 : Fin 1))) 1) + v4 (ix2 (0 : Fin 1) k)) 0
          * v6 (ix2 k q) := by
  unfold k1_pay1 dot_S5000x16_S16x40_S5000x40_1_0_0_1_n_n
  refine (DenseLayer.matmul_rows_apply _ none _ _ p q).trans ?_
  refine Finset.sum_congr rfl fun k _ => ?_
  refine congrArg (fun t : EReal => t * v6 (ix2 k q)) ?_
  show max (addf _ _ (ix2 p k)) (Ideal.ofBits .f32 0x00000000#32) = _
  rw [Ideal.ofBits_zero_f32]
  exact congrArg (fun t : EReal => max t 0) (pre_apply v0 v2 v4 _ _ _ _ _ p k)

/-- Body 2's stored value at (p, q): the log-softmax of the biased row mean. -/
theorem pay2_apply (v0 : FVec Ideal S5000x40 .f32) (v2 : FVec Ideal S5000x1 .f32) (v4 : FVec Ideal S1x40 .f32)
    (p : Fin 5000) (q : Fin 40) :
    k2_pay1 (F := Ideal) v0 v2 v4 (ix2 p q)
      = Cert.Sage.lsm (fun l => Ideal.div (v0 (ix2 p l)) (max (v2 (ix2 p (0 : Fin 1))) 1) + v4 (ix2 (0 : Fin 1) l)) q := by
  unfold k2_pay1
  refine sm_apply _ _ _ _ _ _ _ p q _ ?_
  intro l
  exact pre_apply v0 v2 v4 _ _ _ _ _ p l

end Cert.KernelIdeal.Pay

end
-- ==== Proof.KReg.lean ====
/-
  Each region's output array after its run, as one function of the arrays the region finds at entry.

  Every region runs over ten points; point t stages rows 5000·t … 5000·t + 4999 of each row-blocked array (and the
  whole of each small array) and writes back the same rows of its output. So the ten written blocks tile the output
  array, and block t of the output is the body's stored value on block t of the inputs: entry (n, j) of the output
  is the body's function of row n of the row-blocked inputs and of the small arrays.
-/
import proofs.«158554_j82016695484547_1_alg».proof.Proof.Gen.KernelIdeal.Frame
import proofs.«158554_j82016695484547_1_alg».proof.Proof.KPay
import Idealize.ShloMosaic.Lib.Pipeline.Value
import Idealize.ShloMosaic.Lib.ValueIdx

set_option maxRecDepth 16384

noncomputable section

open scoped BigOperators

namespace Cert.KernelIdeal.Reg

open Cert.KernelIdeal Cert.KernelIdeal.Gen Idealize.ShloMosaic Idealize.ShloMosaic.ValueIdx Idealize.ShloMosaic.TcCoe
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the product of the node rows with the first matrix -/

/-- Entry (n, j) of region 0's output: row n of the first array against column j of the second. -/
def G0 (X : S50000x100.Idx → EReal) (W : S100x16.Idx → EReal) : S50000x16.Idx → EReal :=
  fun i => ∑ k : Fin 100, X (ix2 (i 0) k) * W (ix2 k (i 1))

/-- Where the three windows' blocks sit at point t: the row-blocked ones at block row t, the matrix at its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0 (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz]
  simp only [View.ld_unit_zero (S := S5000x100) hz, View.ld_unit_zero (S := S100x16) hz]
  obtain ⟨e0, e1, e2, e3, e4, e5⟩ := idx0 t
  funext j
  obtain ⟨p, q, rfl⟩ : ∃ (p : Fin 5000) (q : Fin 16), j = ix2 p q := ⟨j 0, j 1, eq_ix2 j⟩
  refine (Pay.pay0_apply _ _ p q).trans ?_
  show _ = G0 (V c main_arg0) (V c main_arg2) (((cfg0.win 2).blk t).view.emb (ix2 p q))
  simp only [G0]
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 100 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 100 + 1 * k.val = k.val; omega
    | ⟨1, _⟩ => show win0_1.index t (1 : Fin 2) * 16 + 1 * q.val = win0_2.index t (1 : Fin 2) * 16 + 1 * q.val; omega
  have hA : iblk0 V c 0 t (ix2 p k) = V c main_arg0 (ix2 ((((cfg0.win 2).blk t).view.emb (ix2 p q)) 0) k) :=
    congrArg (V c main_arg0) h0
  have hB : iblk0 V c 1 t (ix2 k q) = V c main_arg2 (ix2 k ((((cfg0.win 2).blk t).view.emb (ix2 p q)) 1)) :=
    congrArg (V c main_arg2) h1
  rw [hA, hB]

theorem mem_blk0 (t : Fin cfg0.N) (i : S50000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v9).slice (win0_2.rect t)).set ↔ _
  rw [View.set_slice_whole, Rect.mem_set_unit]
  exact Iff.rfl

theorem cover0 (i : S50000x16.Idx) : ∃ t : Fin cfg0.N, (cfg0.win 2).flush t = true ∧ i ∈ ((cfg0.win 2).blk t).view.set := by
  have hi0 : (i 0).val < 50000 := (i 0).isLt
  have hi1 : (i 1).val < 16 := (i 1).isLt
  have hN : cfg0.N = 10 := N_0
  refine ⟨⟨(i 0).val / 5000, by omega⟩, flush0_2 _, ?_⟩
  rw [mem_blk0]
  obtain ⟨e0, e1, e2, e3, e4, e5⟩ := idx0 ⟨(i 0).val / 5000, by omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 16 ≤ (i 1).val ∧ (i 1).val < win0_2.index _ (1 : Fin 2) * 16 + 16; rw [e5]; omega

/-- Region 0's output array after the run. -/
theorem final0 (c : Dev nD) : (dat0 V c).arrAt 2 cfg0.N = G0 (V c main_arg0) (V c main_arg2) :=
  (dat0 V c).arrAt_eq_of_cover 2 (G0 (V c main_arg0) (V c main_arg2)) (fun t _ => flushed0 V c t) cover0

/-! ## Region 1: the rectified, biased row mean against the second matrix -/

/-- Entry (n, j) of region 1's output. -/
def G1 (S : S50000x16.Idx → EReal) (D : S50000x1.Idx → EReal) (B : S1x16.Idx → EReal) (W : S16x40.Idx → EReal) :
    S50000x40.Idx → EReal :=
  fun i => ∑ k : Fin 16, max (Ideal.div (S (ix2 (i 0) k)) (max (D (ix2 (i 0) (0 : Fin 1))) 1) + B (ix2 (0 : Fin 1) k)) 0
    * W (ix2 k (i 1))

theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem flushed1 (c : Dev nD) (t : Fin cfg1.N) :
    (dat1 V c).flushed 4 t = ((cfg1.win 4).blk t).view.read (Elt Ideal)
      (G1 (V c main_v19) (V c main_v8) (V c main_v20) (V c main_arg4)) := by
  show (cfg1.win 4).cut (grid1.coords t) ((dat1 V c).after 4 t) = _
  rw [after1_4]
  unfold out1_4
  rw [View.canon_unit_zero hz]
  simp only [View.ld_unit_zero (S := S5000x16) hz, View.ld_unit_zero (S := S5000x1) hz, View.ld_unit_zero (S := S1x16) hz,
    View.ld_unit_zero (S := S16x40) hz]
  obtain ⟨e0, e1, e2, e3, e4, e5, e6, e7, e8, e9⟩ := idx1 t
  funext j
  obtain ⟨p, q, rfl⟩ : ∃ (p : Fin 5000) (q : Fin 40), j = ix2 p q := ⟨j 0, j 1, eq_ix2 j⟩
  refine (Pay.pay1_apply _ _ _ _ p q).trans ?_
  show _ = G1 (V c main_v19) (V c main_v8) (V c main_v20) (V c main_arg4) (((cfg1.win 4).blk t).view.emb (ix2 p q))
  simp only [G1]
  have hD : ((cfg1.win 1).blk t).view.emb (ix2 p (0 : Fin 1)) = ix2 ((((cfg1.win 4).blk t).view.emb (ix2 p q)) 0) (0 : Fin 1) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  refine Finset.sum_congr rfl fun k _ => ?_
  have hS : ((cfg1.win 0).blk t).view.emb (ix2 p k) = ix2 ((((cfg1.win 4).blk t).view.emb (ix2 p q)) 0) k := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 16 + 1 * k.val = k.val; omega
  have hB : ((cfg1.win 2).blk t).view.emb (ix2 (0 : Fin 1) k) = ix2 (0 : Fin 1) k := by
    funext a; apply Fin.ext
    match a with
    | ⟨0, _⟩ => show win1_2.index t (0 : Fin 2) * 1 + 1 * 0 = 0; omega
    | ⟨1, _⟩ => show win1_2.index t (1 : Fin 2) * 16 + 1 * k.val = k.val; omega
  have hW : ((cfg1.win 3).blk t).view.emb (ix2 k q) = ix2 k ((((cfg1.win 4).blk t).view.emb (ix2 p q)) 1) := by
    funext a; apply Fin.ext
    match a with
    | ⟨0, _⟩ => show win1_3.index t (0 : Fin 2) * 16 + 1 * k.val = k.val; omega
    | ⟨1, _⟩ => show win1_3.index t (1 : Fin 2) * 40 + 1 * q.val = win1_4.index t (1 : Fin 2) * 40 + 1 * q.val; omega
  have hS' : iblk1 V c 0 t (ix2 p k) = V c main_v19 (ix2 ((((cfg1.win 4).blk t).view.emb (ix2 p q)) 0) k) :=
    congrArg (V c main_v19) hS
  have hD' : iblk1 V c 1 t (ix2 p (0 : Fin 1)) = V c main_v8 (ix2 ((((cfg1.win 4).blk t).view.emb (ix2 p q)) 0) (0 : Fin 1)) :=
    congrArg (V c main_v8) hD
  have hB' : iblk1 V c 2 t (ix2 (0 : Fin 1) k) = V c main_v20 (ix2 (0 : Fin 1) k) := congrArg (V c main_v20) hB
  have hW' : iblk1 V c 3 t (ix2 k q) = V c main_arg4 (ix2 k ((((cfg1.win 4).blk t).view.emb (ix2 p q)) 1)) :=
    congrArg (V c main_arg4) hW
  rw [hS', hD', hB', hW']

theorem mem_blk1 (t : Fin cfg1.N) (i : S50000x40.Idx) :
    i ∈ ((cfg1.win 4).blk t).view.set ↔ ∀ a : Fin 2, win1_4.index t a * S5000x40.size a ≤ (i a).val ∧ (i a).val < win1_4.index t a * S5000x40.size a + S5000x40.size a := by
  show i ∈ ((View.whole main_v21).slice (win1_4.rect t)).set ↔ _
  rw [View.set_slice_whole, Rect.mem_set_unit]
  exact Iff.rfl

theorem cover1 (i : S50000x40.Idx) : ∃ t : Fin cfg1.N, (cfg1.win 4).flush t = true ∧ i ∈ ((cfg1.win 4).blk t).view.set := by
  have hi0 : (i 0).val < 50000 := (i 0).isLt
  have hi1 : (i 1).val < 40 := (i 1).isLt
  have hN : cfg1.N = 10 := N_1
  refine ⟨⟨(i 0).val / 5000, by omega⟩, flush1_4 _, ?_⟩
  rw [mem_blk1]
  obtain ⟨e0, e1, e2, e3, e4, e5, e6, e7, e8, e9⟩ := idx1 ⟨(i 0).val / 5000, by omega⟩
  intro a
  match a with
  | ⟨0, _⟩ => show win1_4.index _ (0 : Fin 2) * 5000 ≤ (i 0).val ∧ (i 0).val < win1_4.index _ (0 : Fin 2) * 5000 + 5000; rw [e8]; show (i 0).val / 5000 * 5000 ≤ _ ∧ _ < (i 0).val / 5000 * 5000 + 5000; omega
  | ⟨1, _⟩ => show win1_4.index _ (1 : Fin 2) * 40 ≤ (i 1).val ∧ (i 1).val < win1_4.index _ (1 : Fin 2) * 40 + 40; rw [e9]; omega

/-- Region 1's output array after the run. -/
theorem final1 (c : Dev nD) : (dat1 V c).arrAt 4 cfg1.N = G1 (V c main_v19) (V c main_v8) (V c main_v20) (V c main_arg4) :=
  (dat1 V c).arrAt_eq_of_cover 4 (G1 (V c main_v19) (V c main_v8) (V c main_v20) (V c main_arg4)) (fun t _ => flushed1 V c t) cover1

/-! ## Region 2: the log-softmax of the biased row mean -/

/-- Entry (n, j) of region 2's output. -/
def G2 (S : S50000x40.Idx → EReal) (D : S50000x1.Idx → EReal) (B : S1x40.Idx → EReal) : S50000x40.Idx → EReal :=
  fun i => Cert.Sage.lsm (fun l => Ideal.div (S (ix2 (i 0) l)) (max (D (ix2 (i 0) (0 : Fin 1))) 1) + B (ix2 (0 : Fin 1) l)) (i 1)

theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem flushed2 (c : Dev nD) (t : Fin cfg2.N) :
    (dat2 V c).flushed 3 t = ((cfg2.win 3).blk t).view.read (Elt Ideal)
      (G2 (V c main_v31) (V c main_v8) (V c main_v32)) := by
  show (cfg2.win 3).cut (grid2.coords t) ((dat2 V c).after 3 t) = _
  rw [after2_3]
  unfold out2_3
  rw [View.canon_unit_zero hz]
  simp only [View.ld_unit_zero (S := S5000x40) hz, View.ld_unit_zero (S := S5000x1) hz, View.ld_unit_zero (S := S1x40) hz]
  obtain ⟨e0, e1, e2, e3, e4, e5, e6, e7⟩ := idx2 t
  funext j
  obtain ⟨p, q, rfl⟩ : ∃ (p : Fin 5000) (q : Fin 40), j = ix2 p q := ⟨j 0, j 1, eq_ix2 j⟩
  refine (Pay.pay2_apply _ _ _ p q).trans ?_
  have hq : ((((cfg2.win 3).blk t).view.emb (ix2 p q)) 1) = q := by
    apply Fin.ext
    show win2_3.index t (1 : Fin 2) * 40 + 1 * q.val = q.val; omega
  show _ = G2 (V c main_v31) (V c main_v8) (V c main_v32) (((cfg2.win 3).blk t).view.emb (ix2 p q))
  simp only [G2]
  rw [hq]
  have hD : ((cfg2.win 1).blk t).view.emb (ix2 p (0 : Fin 1)) = ix2 ((((cfg2.win 3).blk t).view.emb (ix2 p q)) 0) (0 : Fin 1) := by
    funext a; apply Fin.ext
    match a with
    | ⟨0, _⟩ => show win2_1.index t (0 : Fin 2) * 5000 + 1 * p.val = win2_3.index t (0 : Fin 2) * 5000 + 1 * p.val; omega
    | ⟨1, _⟩ => show win2_1.index t (1 : Fin 2) * 1 + 1 * 0 = 0; omega
  refine congrArg (fun h => Cert.Sage.lsm h q) (funext fun l => ?_)
  have hS : ((cfg2.win 0).blk t).view.emb (ix2 p l) = ix2 ((((cfg2.win 3).blk t).view.emb (ix2 p q)) 0) l := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 40 + 1 * l.val = l.val; omega
  have hB : ((cfg2.win 2).blk t).view.emb (ix2 (0 : Fin 1) l) = ix2 (0 : Fin 1) l := by
    funext a; apply Fin.ext
    match a with
    | ⟨0, _⟩ => show win2_2.index t (0 : Fin 2) * 1 + 1 * 0 = 0; omega
    | ⟨1, _⟩ => show win2_2.index t (1 : Fin 2) * 40 + 1 * l.val = l.val; omega
  have hS' : iblk2 V c 0 t (ix2 p l) = V c main_v31 (ix2 ((((cfg2.win 3).blk t).view.emb (ix2 p q)) 0) l) :=
    congrArg (V c main_v31) hS
  have hD' : iblk2 V c 1 t (ix2 p (0 : Fin 1)) = V c main_v8 (ix2 ((((cfg2.win 3).blk t).view.emb (ix2 p q)) 0) (0 : Fin 1)) :=
    congrArg (V c main_v8) hD
  have hB' : iblk2 V c 2 t (ix2 (0 : Fin 1) l) = V c main_v32 (ix2 (0 : Fin 1) l) := congrArg (V c main_v32) hB
  rw [hS', hD', hB']

theorem mem_blk2 (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v33).slice (win2_3.rect t)).set ↔ _
  rw [View.set_slice_whole, Rect.mem_set_unit]
  exact Iff.rfl

theorem cover2 (i : S50000x40.Idx) : ∃ t : Fin cfg2.N, (cfg2.win 3).flush t = true ∧ i ∈ ((cfg2.win 3).blk t).view.set := by
  have hi0 : (i 0).val < 50000 := (i 0).isLt
  have hi1 : (i 1).val < 40 := (i 1).isLt
  have hN : cfg2.N = 10 := N_2
  refine ⟨⟨(i 0).val / 5000, by omega⟩, flush2_3 _, ?_⟩
  rw [mem_blk2]
  obtain ⟨e0, e1, e2, e3, e4, e5, e6, e7⟩ := idx2 ⟨(i 0).val / 5000, by omega⟩
  intro a
  match a with
  | ⟨0, _⟩ => show win2_3.index _ (0 : Fin 2) * 5000 ≤ (i 0).val ∧ (i 0).val < win2_3.index _ (0 : Fin 2) * 5000 + 5000; rw [e6]; show (i 0).val / 5000 * 5000 ≤ _ ∧ _ < (i 0).val / 5000 * 5000 + 5000; omega
  | ⟨1, _⟩ => show win2_3.index _ (1 : Fin 2) * 40 ≤ (i 1).val ∧ (i 1).val < win2_3.index _ (1 : Fin 2) * 40 + 40; rw [e7]; omega

/-- Region 2's output array after the run. -/
theorem final2 (c : Dev nD) : (dat2 V c).arrAt 3 cfg2.N = G2 (V c main_v31) (V c main_v8) (V c main_v32) :=
  (dat2 V c).arrAt_eq_of_cover 3 (G2 (V c main_v31) (V c main_v8) (V c main_v32)) (fun t _ => flushed2 V c t) cover2

end Cert.KernelIdeal.Reg

end
-- ==== Proof.KVal.lean ====
/-
  The kernel program's result, read back through the three regions and the host stretches between them, at an entry:
  the network with each matrix applied before the aggregation.
-/
import proofs.«158554_j82016695484547_1_alg».proof.Proof.KFold
import proofs.«158554_j82016695484547_1_alg».proof.Proof.KReg

set_option maxRecDepth 16384

noncomputable section

open scoped BigOperators

namespace Cert.KernelIdeal.Val

open Cert.KernelIdeal Cert.KernelIdeal.Gen Cert.KernelIdeal.Fold Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## The boundaries' contents, continued through the regions -/

theorem w2_v9 : (W2 m ρ c (Proc.devRef .tc main_v9) : FVec Ideal S50000x16 .f32)
    = Reg.G0 (m ((c : Thread nD τ).loc main_arg0)) (m ((c : Thread nD τ).loc main_arg2)) := by
  refine (W2_arr m ρ c 2).trans ?_
  refine (Reg.final0 (V1 m ρ) c).trans ?_
  show Reg.G0 (W1 m ρ c (Proc.devRef .tc main_arg0)) (W1 m ρ c (Proc.devRef .tc main_arg2)) = _
  rw [w1_arg0, w1_arg2]

/-- The first aggregate: the rows of region 0's output gathered at the source column, accumulated at the destination
    column. -/
def agg1 : FVec Ideal S50000x16 .f32 :=
  Host.scatterAdd scatter_S50000x16_S800000x1_S800000x16_1_0_0_1
    (broadcastInDim S50000x16 ![] bcast_S_S50000x16 (constant S_ .f32 0x00000000#32))
    (dstColOf (dstV m c))
    (Host.gather gather_S50000x16_S800000x1_S800000x16_1_0_n_n_0_1_116
      (Reg.G0 (m ((c : Thread nD τ).loc main_arg0)) (m ((c : Thread nD τ).loc main_arg2))) (srcColOf (srcV m c)))

theorem w3_v19 : (W3 m ρ c (Proc.devRef .tc main_v19) : FVec Ideal S50000x16 .f32) = agg1 m c := by
  refine (s1_v19 (W2 m ρ c)).trans ?_
  rw [w2_v3, w2_v9, w2_v1]
  try rfl

theorem w3_v20 : (W3 m ρ c (Proc.devRef .tc main_v20) : FVec Ideal S1x16 .f32)
    = shapeCast S1x16 (m ((c : Thread nD τ).loc main_arg3)) shapeCasts_S16_S1x16 := by
  refine (s1_v20 (W2 m ρ c)).trans ?_
  rw [w2_arg3]

theorem w3_v8 : (W3 m ρ c (Proc.devRef .tc main_v8) : FVec Ideal S50000x1 .f32) = degCol m c := by
  refine Eq.trans ?_ (w2_v8 m ρ c)
  show StableHlo.after hostOps1 (W2 m ρ c) (Proc.devRef .tc main_v8) = W2 m ρ c (Proc.devRef .tc main_v8)
  host_keeps

theorem w3_v1 : (W3 m ρ c (Proc.devRef .tc main_v1) : IVec S800000 32) = srcV m c := by
  refine Eq.trans ?_ (w2_v1 m ρ c)
  show StableHlo.after hostOps1 (W2 m ρ c) (Proc.devRef .tc main_v1) = W2 m ρ c (Proc.devRef .tc main_v1)
  host_keeps

theorem w3_v3 : (W3 m ρ c (Proc.devRef .tc main_v3) : IVec S800000 32) = dstV m c := by
  refine Eq.trans ?_ (w2_v3 m ρ c)
  show StableHlo.after hostOps1 (W2 m ρ c) (Proc.devRef .tc main_v3) = W2 m ρ c (Proc.devRef .tc main_v3)
  host_keeps

theorem w3_arg4 : W3 m ρ c (Proc.devRef .tc main_arg4) = m ((c : Thread nD τ).loc main_arg4) := by
  refine Eq.trans ?_ (w2_arg4 m ρ c)
  show StableHlo.after hostOps1 (W2 m ρ c) (Proc.devRef .tc main_arg4) = W2 m ρ c (Proc.devRef .tc main_arg4)
  host_keeps

theorem w3_arg5 : W3 m ρ c (Proc.devRef .tc main_arg5) = m ((c : Thread nD τ).loc main_arg5) := by
  refine Eq.trans ?_ (w2_arg5 m ρ c)
  show StableHlo.after hostOps1 (W2 m ρ c) (Proc.devRef .tc main_arg5) = W2 m ρ c (Proc.devRef .tc main_arg5)
  host_keeps

/-- Region 1's output. -/
def out1 : FVec Ideal S50000x40 .f32 :=
  Reg.G1 (agg1 m c) (degCol m c) (shapeCast S1x16 (m ((c : Thread nD τ).loc main_arg3)) shapeCasts_S16_S1x16)
    (m ((c : Thread nD τ).loc main_arg4))

theorem w4_v21 : (W4 m ρ c (Proc.devRef .tc main_v21) : FVec Ideal S50000x40 .f32) = out1 m c := by
  refine (W4_arr m ρ c 4).trans ?_
  refine (Reg.final1 (V3 m ρ) c).trans ?_
  show Reg.G1 (W3 m ρ c (Proc.devRef .tc main_v19)) (W3 m ρ c (Proc.devRef .tc main_v8)) (W3 m ρ c (Proc.devRef .tc main_v20))
      (W3 m ρ c (Proc.devRef .tc main_arg4)) = _
  rw [w3_v19, w3_v8, w3_v20, w3_arg4]
  try rfl

theorem w4_v8 : (W4 m ρ c (Proc.devRef .tc main_v8) : FVec Ideal S50000x1 .f32) = degCol m c :=
  (W4_arr m ρ c 1).trans (((dat1 (V3 m ρ) c).arrAt_in 1 rfl _).trans ((A_eq1 (V3 m ρ) c 1).trans (w3_v8 m ρ c)))

theorem w4_v1 : (W4 m ρ c (Proc.devRef .tc main_v1) : IVec S800000 32) = srcV m c :=
  (W4_of_ne m ρ c main_v1 (by decide)).trans (w3_v1 m ρ c)

theorem w4_v3 : (W4 m ρ c (Proc.devRef .tc main_v3) : IVec S800000 32) = dstV m c :=
  (W4_of_ne m ρ c main_v3 (by decide)).trans (w3_v3 m ρ c)

theorem w4_arg5 : W4 m ρ c (Proc.devRef .tc main_arg5) = m ((c : Thread nD τ).loc main_arg5) :=
  (W4_of_ne m ρ c main_arg5 (by decide)).trans (w3_arg5 m ρ c)

/-- The second aggregate: the rows of region 1's output gathered and accumulated. -/
def agg2 : FVec Ideal S50000x40 .f32 :=
  Host.scatterAdd scatter_S50000x40_S800000x1_S800000x40_1_0_0_1
    (broadcastInDim S50000x40 ![] bcast_S_S50000x40 (constant S_ .f32 0x00000000#32))
    (dstColOf (dstV m c))
    (Host.gather gather_S50000x40_S800000x1_S800000x40_1_0_n_n_0_1_140 (out1 m c) (srcColOf (srcV m c)))

theorem w5_v31 : (W5 m ρ c (Proc.devRef .tc main_v31) : FVec Ideal S50000x40 .f32) = agg2 m c := by
  refine (s2_v31 (W4 m ρ c)).trans ?_
  rw [w4_v3, w4_v21, w4_v1]
  try rfl

theorem w5_v32 : (W5 m ρ c (Proc.devRef .tc main_v32) : FVec Ideal S1x40 .f32)
    = shapeCast S1x40 (m ((c : Thread nD τ).loc main_arg5)) shapeCasts_S40_S1x40 := by
  refine (s2_v32 (W4 m ρ c)).trans ?_
  rw [w4_arg5]

theorem w5_v8 : (W5 m ρ c (Proc.devRef .tc main_v8) : FVec Ideal S50000x1 .f32) = degCol m c := by
  refine Eq.trans ?_ (w4_v8 m ρ c)
  show StableHlo.after hostOps2 (W4 m ρ c) (Proc.devRef .tc main_v8) = W4 m ρ c (Proc.devRef .tc main_v8)
  host_keeps

/-- The result's buffer at the last boundary. -/
theorem w6_v33 : (W6 m ρ c (Proc.devRef .tc main_v33) : FVec Ideal S50000x40 .f32)
    = Reg.G2 (agg2 m c) (degCol m c) (shapeCast S1x40 (m ((c : Thread nD τ).loc main_arg5)) shapeCasts_S40_S1x40) := by
  refine (W6_arr m ρ c 3).trans ?_
  refine (Reg.final2 (V5 m ρ) c).trans ?_
  show Reg.G2 (W5 m ρ c (Proc.devRef .tc main_v31)) (W5 m ρ c (Proc.devRef .tc main_v8)) (W5 m ρ c (Proc.devRef .tc main_v32)) = _
  rw [w5_v31, w5_v8, w5_v32]

end Cert.KernelIdeal.Val

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibGatherRows.lean ====
/-
  A gather of whole rows of a table, read at an index.

  A table `T : [N, C]` gathered at a column `idx : [R, 1]` of start indices with offset_dims = [1],
  collapsed_slice_dims = [0], start_index_map = [0], index_vector_dim = 1 and slice sizes [1, C] has the result `[R, C]`
  whose row `e` is a row of the table. Read at `(e, j)` it is the table at `(r, j)`, where `r` is the start index
  `idx[e, 0]` read as a signed integer and clamped into `[0, N − 1]`: the one start-indexed axis is collapsed, so its
  slice has extent one and the clamp's upper end is `N − 1`; the column axis is the one offset axis, not start-indexed, so
  its slice starts at column 0 and the result's column coordinate is the table's.

  Stated for any dimension-numbers record with those field values (`gather_rows`), and for the record built from the
  extents and the well-formedness witness alone (`rowDims`, `gather_rowDims_apply`).
-/
import Idealize.ShloMosaic.PureOps.ShapeOps
import Idealize.ShloMosaic.Lib.ValueIdx

namespace Idealize.ShloMosaic.GatherRows

open Idealize.ShloMosaic Idealize.ShloMosaic.ValueIdx

/-- A list that is one entry long has that entry at every position it has. -/
theorem getElem_of_eq_singleton {β : Type} (l : List β) (b : β) (n : Nat) (h : n < l.length) (hl : l = [b]) : l[n] = b := by
  subst hl
  have : n = 0 := by simpa using h
  subst this; rfl

/-- THE ROW GATHER READ AT `(e, j)`. For dimension numbers over a table `[N, C]`, start indices `[R, 1]` and result
    `[R, C]` with offset axis 1, collapsed axis 0, no batching axes, start index map `[0]` and the index vector on axis 1
    (`hoff` … `hivd`: the record's field values; its conditions give the slice sizes `[1, C]`): the table at row
    `idx[e, 0]`, read signed and clamped into `[0, N − 1]`, column `j`. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (T : (⟨2, ![N, C]⟩ : Shape).Idx → α) (idx : IVec ⟨2, ![R, 1]⟩ w) (e : Fin R) (j : Fin C) (hN : 0 < N) :
    Host.gather d T idx (ix2 e j) = T (ix2 ⟨min (idx (ix2 e 0)).toInt.toNat (N - 1), by omega⟩ j) := by
  unfold Host.gather
  congr 1
  funext a
  apply Fin.ext
  have hb : ∀ a, a ∉ d.operandBatchingDims := fun a => by rw [hob]; exact List.not_mem_nil
  match a with
  | ⟨0, _⟩ =>
    -- the row axis: start-indexed and collapsed, so the coordinate is the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    -- the start-indices index of result index (e, j), component 0, is (e, 0)
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: the one offset axis, not start-indexed, so the coordinate is the result's column
    have hk : (1 : Fin 2) ∈ d.sKept := by rw [GatherDims.mem_sKept, hcoll]; exact ⟨by simp, hb 1⟩
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1)]
    unfold GatherDims.start GatherDims.offCoord
    rw [dif_neg hm, dif_pos hk]
    simp only [Nat.add_zero, Nat.zero_add]
    rw [getElem_of_eq_singleton d.offsetDims 1 _ _ hoff]
    rfl

/-- Those dimension numbers for a table `[N, C]`, start indices `[R, 1]` and result `[R, C]`; their conditions `wf` are
    decided on literal extents. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather by `rowDims` read at `(e, j)`. -/
theorem gather_rowDims_apply {α : Type} {N R C w : Nat} (hN : 0 < N)
    (wf : GatherDims.WF ⟨2, ![N, C]⟩ ⟨2, ![R, 1]⟩ ⟨2, ![R, C]⟩ [1] [0] [] [0] [] 1 ![1, C])
    (T : (⟨2, ![N, C]⟩ : Shape).Idx → α) (idx : IVec ⟨2, ![R, 1]⟩ w) (e : Fin R) (j : Fin C) :
    Host.gather (rowDims N R C wf) T idx (ix2 e j) = T (ix2 ⟨min (idx (ix2 e 0)).toInt.toNat (N - 1), by omega⟩ j) :=
  gather_rows (rowDims N R C wf) rfl rfl rfl rfl rfl T idx e j hN

end Idealize.ShloMosaic.GatherRows
-- ==== Proof.Cols.lean ====
/-
  The aggregation over the edges as the host's gather and accumulating scatter, read at an entry.

  Whatever column of source words and column of destination words the two programs build, as long as entry (e, 0) of
  the first is edge e's wrapped source word and entry (e, 0) of the second is edge e's destination word: gathering the
  rows of a table at the first column and accumulating them into a zero array at the second gives, at (n, j), the
  aggregate of the table over the edges landing on n; accumulating ones into a zero vector gives the degree.
  The two columns as both programs spell them (a slice of the edge list's row, a reshape, the wrap of negative words
  by compare, add and select, a broadcast to a column) are read at (e, 0).
-/
import proofs.«158554_j82016695484547_1_alg».proof.Proof.Spec
import proofs.«158554_j82016695484547_1_alg».proof.Proof.LibScatterAddRows
import proofs.«158554_j82016695484547_1_alg».proof.Proof.LibGatherRows
import Idealize.ShloMosaic.Lib.Pipeline.Value
import Idealize.ShloMosaic.Lib.ValueLayout

noncomputable section

open scoped BigOperators

namespace Cert.Sage

open Idealize.ShloMosaic Idealize.ShloMosaic.ValueIdx

/-- The destination column read at (e, 0): row 1 of the edge list sliced out, reshaped to a vector, laid as a column. -/
theorem dstCol_apply (ei : Edges)
    (hs : (⟨2, ![2, 800000]⟩ : Shape).Slices ![1, 0] ⟨2, ![1, 800000]⟩)
    (hc : (⟨2, ![1, 800000]⟩ : Shape).ShapeCasts ⟨1, ![800000]⟩)
    (hb : (⟨1, ![800000]⟩ : Shape).BroadcastsInDim ⟨2, ![800000, 1]⟩ ![0]) (e : Fin 800000) :
    broadcastInDim ⟨2, ![800000, 1]⟩ ![0] hb
        (shapeCast ⟨1, ![800000]⟩ (extractStridedSlice ⟨2, ![1, 800000]⟩ ![1, 0] ei hs) hc) (ix2 e (0 : Fin 1))
      = ei (ix2 (1 : Fin 2) e) := by
  -- the column at (e, 0) is the vector at e: the vector's one axis is not a unit axis and is laid on axis 0
  refine (broadcastInDim_apply _ hb _ (ix2 e (0 : Fin 1)) (ix1 e) (fun a => match a with
    | ⟨0, _⟩ => by show e.val = if (800000 : Nat) = 1 then 0 else e.val; rw [if_neg (by decide)])).trans ?_
  -- the vector at e is the row at (0, e): both sit at row-major position e
  refine (shapeCast_apply _ hc (ix1 e) (ix2 (0 : Fin 1) e) (by
    rewrite [Shape.rowMajor_val_two, Shape.rowMajor_val_one]
    show 0 * 800000 + e.val = e.val
    omega)).trans ?_
  -- the slice at offsets (1, 0) read at (0, e) is the edge list at (1, e)
  exact extractStridedSlice_apply ![1, 0] ei hs (ix2 (0 : Fin 1) e) (ix2 (1 : Fin 2) e) (fun a => match a with
    | ⟨0, _⟩ => by show 1 = 1 + 0; rfl
    | ⟨1, _⟩ => by show e.val = 0 + e.val; omega)

/-- The source column read at (e, 0): row 0 of the edge list sliced out and reshaped, a negative word increased by
    50000, laid as a column. -/
theorem srcCol_apply (ei : Edges)
    (hs : (⟨2, ![2, 800000]⟩ : Shape).Slices ![0, 0] ⟨2, ![1, 800000]⟩)
    (hc : (⟨2, ![1, 800000]⟩ : Shape).ShapeCasts ⟨1, ![800000]⟩)
    (h0 : (⟨0, ![]⟩ : Shape).BroadcastsInDim ⟨1, ![800000]⟩ ![])
    (hb : (⟨1, ![800000]⟩ : Shape).BroadcastsInDim ⟨2, ![800000, 1]⟩ ![0]) (e : Fin 800000) :
    broadcastInDim ⟨2, ![800000, 1]⟩ ![0] hb
        (select
          (cmpi .slt (shapeCast ⟨1, ![800000]⟩ (extractStridedSlice ⟨2, ![1, 800000]⟩ ![0, 0] ei hs) hc)
            (broadcastInDim ⟨1, ![800000]⟩ ![] h0 (constantI ⟨0, ![]⟩ 32 0#32)))
          (addi (shapeCast ⟨1, ![800000]⟩ (extractStridedSlice ⟨2, ![1, 800000]⟩ ![0, 0] ei hs) hc)
            (broadcastInDim ⟨1, ![800000]⟩ ![] h0 (constantI ⟨0, ![]⟩ 32 50000#32)))
          (shapeCast ⟨1, ![800000]⟩ (extractStridedSlice ⟨2, ![1, 800000]⟩ ![0, 0] ei hs) hc))
        (ix2 e (0 : Fin 1))
      = srcWord ei e := by
  -- the row of source words, reshaped to a vector, at e: the edge list at (0, e)
  have hrow : shapeCast ⟨1, ![800000]⟩ (extractStridedSlice ⟨2, ![1, 800000]⟩ ![0, 0] ei hs) hc (ix1 e)
      = ei (ix2 (0 : Fin 2) e) := by
    refine (shapeCast_apply _ hc (ix1 e) (ix2 (0 : Fin 1) e) (by
      rewrite [Shape.rowMajor_val_two, Shape.rowMajor_val_one]
      show 0 * 800000 + e.val = e.val
      omega)).trans ?_
    exact extractStridedSlice_apply ![0, 0] ei hs (ix2 (0 : Fin 1) e) (ix2 (0 : Fin 2) e) (fun a => match a with
      | ⟨0, _⟩ => by show 0 = 0 + 0; rfl
      | ⟨1, _⟩ => by show e.val = 0 + e.val; omega)
  -- a scalar broadcast to the vector reads the scalar everywhere
  have hk : ∀ b : BitVec 32, broadcastInDim ⟨1, ![800000]⟩ ![] h0 (constantI ⟨0, ![]⟩ 32 b) (ix1 e) = b := fun b =>
    broadcastInDim_apply _ h0 (constantI ⟨0, ![]⟩ 32 b) (ix1 e) ix0 (fun a => a.elim0)
  -- the column at (e, 0) is the wrapped vector at e, and the wrap is entry by entry
  refine (broadcastInDim_apply _ hb _ (ix2 e (0 : Fin 1)) (ix1 e) (fun a => match a with
    | ⟨0, _⟩ => by show e.val = if (800000 : Nat) = 1 then 0 else e.val; rw [if_neg (by decide)])).trans ?_
  show Scalar.select
      (IntOp.cmpi .slt (shapeCast ⟨1, ![800000]⟩ (extractStridedSlice ⟨2, ![1, 800000]⟩ ![0, 0] ei hs) hc (ix1 e))
        (broadcastInDim ⟨1, ![800000]⟩ ![] h0 (constantI ⟨0, ![]⟩ 32 0#32) (ix1 e)))
      (IntOp.addi (shapeCast ⟨1, ![800000]⟩ (extractStridedSlice ⟨2, ![1, 800000]⟩ ![0, 0] ei hs) hc (ix1 e))
        (broadcastInDim ⟨1, ![800000]⟩ ![] h0 (constantI ⟨0, ![]⟩ 32 50000#32) (ix1 e)))
      (shapeCast ⟨1, ![800000]⟩ (extractStridedSlice ⟨2, ![1, 800000]⟩ ![0, 0] ei hs) hc (ix1 e)) = _
  rewrite [hk, hk, hrow]
  rfl

/-- Rows of a table gathered at the source column and accumulated into a zero array at the destination column:
    the aggregate. -/
theorem agg_of_cols {C : ℕ} (ei : Edges) (sc dc : IVec ⟨2, ![800000, 1]⟩ 32)
    (hsc : ∀ e : Fin 800000, sc (ix2 e (0 : Fin 1)) = srcWord ei e)
    (hdc : ∀ e : Fin 800000, dc (ix2 e (0 : Fin 1)) = ei (ix2 (1 : Fin 2) e))
    (g : GatherDims ⟨2, ![50000, C]⟩ ⟨2, ![800000, 1]⟩ ⟨2, ![800000, C]⟩)
    (hoff : g.offsetDims = [1]) (hcoll : g.collapsedSliceDims = [0]) (hob : g.operandBatchingDims = [])
    (hsim : g.startIndexMap = [0]) (hivd : g.indexVectorDim = 1)
    (wf : ScatterDims.WF ⟨2, ![50000, C]⟩ ⟨2, ![800000, 1]⟩ ⟨2, ![800000, C]⟩ [1] [0] [0] 1)
    (Z : (⟨2, ![50000, C]⟩ : Shape).Idx → EReal) (hZ : ∀ i, Z i = 0)
    (T : (⟨2, ![50000, C]⟩ : Shape).Idx → EReal) (n : Fin 50000) (j : Fin C) :
    Ideal.hostScatterAdd (⟨[1], [0], [0], 1, wf⟩ : ScatterDims ⟨2, ![50000, C]⟩ ⟨2, ![800000, 1]⟩ ⟨2, ![800000, C]⟩)
        Z dc (Host.gather g T sc) (ix2 n j)
      = agg ei (fun n k => T (ix2 n k)) n j := by
  -- entry (n, j) of the accumulation: the zero entry plus, over the edges, the gathered entry where the edge's
  -- destination word reads n
  rw [ScatterAddRows.scatterAdd_rows_apply, hZ]
  unfold agg
  apply congrArg (fun s : EReal => 0 + s)
  refine Finset.sum_congr rfl fun e _ => ?_
  -- edge e: the row it reads is the clamped source word, whichever way the column spells that word
  have hr : (⟨min (sc (ix2 e (0 : Fin 1))).toInt.toNat (50000 - 1), by omega⟩ : Fin 50000) = srcRow ei e :=
    Fin.ext (by
      show min (sc (ix2 e (0 : Fin 1))).toInt.toNat (50000 - 1) = min (srcWord ei e).toInt.toNat (50000 - 1)
      rw [hsc e])
  -- the destination word is the edge list's; the gathered entry is the table's at that row
  rewrite [hdc e, GatherRows.gather_rows g hoff hcoll hob hsim hivd T sc e j (by omega), hr]
  exact if_congr Iff.rfl rfl rfl

/-- Ones accumulated into a zero vector at the destination column: the degree. -/
theorem deg_of_col (ei : Edges) (dc : IVec ⟨2, ![800000, 1]⟩ 32)
    (hdc : ∀ e : Fin 800000, dc (ix2 e (0 : Fin 1)) = ei (ix2 (1 : Fin 2) e))
    (wf : ScatterDims.WF ⟨1, ![50000]⟩ ⟨2, ![800000, 1]⟩ ⟨1, ![800000]⟩ [] [0] [0] 1)
    (Z : (⟨1, ![50000]⟩ : Shape).Idx → EReal) (hZ : ∀ i, Z i = 0)
    (U : (⟨1, ![800000]⟩ : Shape).Idx → EReal) (hU : ∀ i, U i = 1) (n : Fin 50000) :
    Ideal.hostScatterAdd (⟨[], [0], [0], 1, wf⟩ : ScatterDims ⟨1, ![50000]⟩ ⟨2, ![800000, 1]⟩ ⟨1, ![800000]⟩)
        Z dc U (ix1 n)
      = deg ei n := by
  -- entry n of the accumulation: the zero entry plus, over the edges, one where the edge's destination word reads n
  rw [ScatterAddRows.scatterAdd_vec_apply, hZ]
  unfold deg
  apply congrArg (fun s : EReal => 0 + s)
  refine Finset.sum_congr rfl fun e _ => ?_
  rewrite [hdc e, hU]
  exact if_congr Iff.rfl rfl rfl

end Cert.Sage

end
-- ==== Proof.KValE.lean ====
/-
  The kernel program's result at an entry: the boundaries' contents read with the aggregation lemmas, layer by layer,
  to the network with each matrix applied before the aggregation.
-/
import proofs.«158554_j82016695484547_1_alg».proof.Proof.KVal
import proofs.«158554_j82016695484547_1_alg».proof.Proof.Cols
import proofs.«158554_j82016695484547_1_alg».proof.Proof.LibRowOps
import Idealize.ShloMosaic.Lib.ValueLayout

set_option maxRecDepth 16384

noncomputable section

open scoped BigOperators

namespace Cert.KernelIdeal.Val

open Cert.KernelIdeal Cert.KernelIdeal.Gen Cert.KernelIdeal.Fold Idealize.ShloMosaic Idealize.ShloMosaic.TcCoe Idealize.SL.Sem
open Idealize.ShloMosaic.StableHlo Idealize.ShloMosaic.ValueIdx

-- the sums over the edges are never opened here: the aggregation lemmas read them
attribute [local irreducible] Cert.Sage.agg Cert.Sage.deg

variable (m : (ℓ : Loc nD τ sig) → Buf (Elt Ideal) ℓ) (ρ : Dev nD → PrngReg) (c : Dev nD)

/-! ## Read at an entry -/

/-- At the extended reals the host's accumulating scatter is the exact sum of the colliding updates. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

/-- The dimension numbers of the three accumulations, spelled out. -/
theorem dimsDeg_eq :
    scatter_S50000_S800000x1_S800000_n_0_0_1
      = (⟨[], [0], [0], 1, scatter_S50000_S800000x1_S800000_n_0_0_1.wf⟩ : ScatterDims S50000 S800000x1 S800000) := rfl
theorem dims16_eq :
    scatter_S50000x16_S800000x1_S800000x16_1_0_0_1
      = (⟨[1], [0], [0], 1, scatter_S50000x16_S800000x1_S800000x16_1_0_0_1.wf⟩ :
          ScatterDims S50000x16 S800000x1 S800000x16) := rfl
theorem dims40_eq :
    scatter_S50000x40_S800000x1_S800000x40_1_0_0_1
      = (⟨[1], [0], [0], 1, scatter_S50000x40_S800000x1_S800000x40_1_0_0_1.wf⟩ :
          ScatterDims S50000x40 S800000x1 S800000x40) := rfl

/-- The arrays the accumulations start from are zero, and the updates of the degree are one. -/
abbrev zerosN : FVec Ideal S50000 .f32 := broadcastInDim S50000 ![] bcast_S_S50000 (constant S_ .f32 0x00000000#32)
abbrev zeros16 : FVec Ideal S50000x16 .f32 := broadcastInDim S50000x16 ![] bcast_S_S50000x16 (constant S_ .f32 0x00000000#32)
abbrev zeros40 : FVec Ideal S50000x40 .f32 := broadcastInDim S50000x40 ![] bcast_S_S50000x40 (constant S_ .f32 0x00000000#32)
abbrev onesE : FVec Ideal S800000 .f32 := broadcastInDim S800000 ![] bcast_S_S800000 (constant S_ .f32 0x3F800000#32)
theorem zerosN_at (i : S50000.Idx) : zerosN i = 0 := Ideal.ofBits_zero_f32
theorem zeros16_at (i : S50000x16.Idx) : zeros16 i = 0 := Ideal.ofBits_zero_f32
theorem zeros40_at (i : S50000x40.Idx) : zeros40 i = 0 := Ideal.ofBits_zero_f32
theorem onesE_at (i : S800000.Idx) : onesE i = 1 := Ideal.ofBits_one_f32

/-- The edge list. -/
abbrev EI : Cert.Sage.Edges := m ((c : Thread nD τ).loc main_arg1)

theorem src_col (e : Fin 800000) : srcColOf (srcV m c) (ix2 e (0 : Fin 1)) = Cert.Sage.srcWord (EI m c) e :=
  Cert.Sage.srcCol_apply (EI m c) slices_S2x800000_S1x800000_0_0 shapeCasts_S1x800000_S800000 bcast_S_S800000
    bcast_S800000_S800000x1_0 e

theorem dst_col (e : Fin 800000) : dstColOf (dstV m c) (ix2 e (0 : Fin 1)) = EI m c (ix2 (1 : Fin 2) e) :=
  Cert.Sage.dstCol_apply (EI m c) slices_S2x800000_S1x800000_1_0 shapeCasts_S1x800000_S800000 bcast_S800000_S800000x1_0 e

/-- The degree column at (n, 0) is the degree. -/
theorem deg_col (n : Fin 50000) : degCol m c (ix2 n (0 : Fin 1)) = Cert.Sage.deg (EI m c) n := by
  unfold degCol
  rw [RowOps.shapeCast_a_a1_apply, scatterAdd_ideal, dimsDeg_eq]
  exact Cert.Sage.deg_of_col (EI m c) (dstColOf (dstV m c)) (dst_col m c)
    scatter_S50000_S800000x1_S800000_n_0_0_1.wf zerosN zerosN_at onesE onesE_at n

/-- The first aggregate at (n, k). -/
theorem agg1_apply (n : Fin 50000) (k : Fin 16) :
    agg1 m c (ix2 n k) = Cert.Sage.agg (EI m c)
      (Cert.Sage.lin (fun n l => m ((c : Thread nD τ).loc main_arg0) (ix2 n l)) (fun l k => m ((c : Thread nD τ).loc main_arg2) (ix2 l k))) n k :=
  by
  unfold agg1
  rw [scatterAdd_ideal, dims16_eq]
  exact Cert.Sage.agg_of_cols (EI m c) (srcColOf (srcV m c)) (dstColOf (dstV m c)) (src_col m c) (dst_col m c)
    gather_S50000x16_S800000x1_S800000x16_1_0_n_n_0_1_116 rfl rfl rfl rfl rfl
    scatter_S50000x16_S800000x1_S800000x16_1_0_0_1.wf zeros16 zeros16_at
    (Reg.G0 (m ((c : Thread nD τ).loc main_arg0)) (m ((c : Thread nD τ).loc main_arg2))) n k

/-- Region 1's output at (n, j): the hidden layer's rows against the second matrix. -/
theorem out1_apply (n : Fin 50000) (j : Fin 40) :
    out1 m c (ix2 n j) = Cert.Sage.lin (Cert.Sage.hidK (EI m c)
        (fun n l => m ((c : Thread nD τ).loc main_arg0) (ix2 n l)) (fun l k => m ((c : Thread nD τ).loc main_arg2) (ix2 l k))
        (fun k => m ((c : Thread nD τ).loc main_arg3) (ix1 k)))
      (fun k j => m ((c : Thread nD τ).loc main_arg4) (ix2 k j)) n j := by
  unfold out1
  simp only [Reg.G1]
  unfold Cert.Sage.lin
  refine Finset.sum_congr rfl fun k _ => ?_
  rw [agg1_apply, deg_col, shapeCast_a_1a_apply]
  rfl

/-- The second aggregate at (n, l). -/
theorem agg2_apply (n : Fin 50000) (l : Fin 40) :
    agg2 m c (ix2 n l) = Cert.Sage.agg (EI m c) (fun n j => out1 m c (ix2 n j)) n l :=
  by
  unfold agg2
  rw [scatterAdd_ideal, dims40_eq]
  exact Cert.Sage.agg_of_cols (EI m c) (srcColOf (srcV m c)) (dstColOf (dstV m c)) (src_col m c) (dst_col m c)
    gather_S50000x40_S800000x1_S800000x40_1_0_n_n_0_1_140 rfl rfl rfl rfl rfl
    scatter_S50000x40_S800000x1_S800000x40_1_0_0_1.wf zeros40 zeros40_at (out1 m c) n l

/-- THE KERNEL PROGRAM'S RESULT at (n, j). -/
theorem kernel_value (n : Fin 50000) (j : Fin 40) :
    (W6 m ρ c (Proc.devRef .tc main_v33) : FVec Ideal S50000x40 .f32) (ix2 n j)
      = Cert.Sage.KV (EI m c)
          (fun n l => m ((c : Thread nD τ).loc main_arg0) (ix2 n l)) (fun l k => m ((c : Thread nD τ).loc main_arg2) (ix2 l k))
          (fun k => m ((c : Thread nD τ).loc main_arg3) (ix1 k)) (fun k j => m ((c : Thread nD τ).loc main_arg4) (ix2 k j))
          (fun j => m ((c : Thread nD τ).loc main_arg5) (ix1 j)) n j := by
  rw [w6_v33]
  simp only [Reg.G2]
  unfold Cert.Sage.KV
  refine congrArg (fun h => Cert.Sage.lsm h j) (funext fun l => ?_)
  rw [agg2_apply, deg_col, shapeCast_a_1a_apply]
  have e : (fun n j => out1 m c (ix2 n j)) = Cert.Sage.lin (Cert.Sage.hidK (EI m c)
        (fun n l => m ((c : Thread nD τ).loc main_arg0) (ix2 n l)) (fun l k => m ((c : Thread nD τ).loc main_arg2) (ix2 l k))
        (fun k => m ((c : Thread nD τ).loc main_arg3) (ix1 k)))
      (fun k j => m ((c : Thread nD τ).loc main_arg4) (ix2 k j)) := funext fun n => funext fun j => out1_apply m c n j
  rw [e]
  rfl

end Cert.KernelIdeal.Val

end
-- ==== Proof.RefRun.lean ====
/-
  The reference program's run, read back to its stages.

  The reference is a straight line of 80 host operations. Every weakly fair execution runs them in order, so each
  buffer ends at the operations' fold over the launch memory. The fold is read in two stretches: the first 65 operations
  (both layers up to the logits) leave the logits' buffer at the stage of that name, as a function of the argument
  arrays; the last 15 (the row-wise log-softmax) take the logits' buffer to the result. The argument buffers are written
  by no operation.
-/
import proofs.«158554_j82016695484547_1_alg».proof.Proof.RefOps

noncomputable section

namespace Cert.ReferenceIdeal.ValueP

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 16384 in
set_option maxHeartbeats 4000000 in
/-- After the first stretch the logits' buffer holds the stage of that name. -/
theorem main50 (W : Valuation τ sig (Elt F)) :
    after opsMain W (Proc.devRef .tc main_v50)
      = val_main_v50 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  after_results_simp
  rfl

/-- The row-wise log-softmax as the last stretch spells it: the row maximum (once more against minus infinity), the
    shifted logits, the logarithm of the row sum of their exponentials. -/
def tailFn (h : (⟨S50000x40, .f32⟩ : BufTy).Contents (Elt F)) : (⟨S50000x40, .f32⟩ : BufTy).Contents (Elt F) :=
  subf
    (subf h (broadcastInDim S50000x40 ![0, 1] bcast_S50000x1_S50000x40_0_1 (broadcastInDim S50000x1 ![0] bcast_S50000_S50000x1_0
      (maximumf (broadcastInDim S50000 ![] bcast_S_S50000 (constant S_ .f32 0xFF800000#32))
        (Host.reduce FloatOps.maximumf h (constant S_ .f32 0xFF800000#32) reducesTo_S50000x40_S50000_d1 h_S_)))))
    (broadcastInDim S50000x40 ![0, 1] bcast_S50000x1_S50000x40_0_1 (Host.log (broadcastInDim S50000x1 ![0] bcast_S50000_S50000x1_0
      (Host.reduceAdd (Host.exp
        (subf h (broadcastInDim S50000x40 ![0, 1] bcast_S50000x1_S50000x40_0_1 (broadcastInDim S50000x1 ![0] bcast_S50000_S50000x1_0
          (maximumf (broadcastInDim S50000 ![] bcast_S_S50000 (constant S_ .f32 0xFF800000#32))
            (Host.reduce FloatOps.maximumf h (constant S_ .f32 0xFF800000#32) reducesTo_S50000x40_S50000_d1 h_S_))))))
        (constant S_ .f32 0x00000000#32) reducesTo_S50000x40_S50000_d1 h_S_))))

/-- The first stretch of the log-softmax leaves the row maximum of the logits' buffer, -/
theorem ta_v0 (W : Valuation τ sig (Elt F)) :
    after opsTa W (Proc.devRef .tc main_call1_v0)
      = Host.reduce FloatOps.maximumf (W (Proc.devRef .tc main_v50)) (constant S_ .f32 0xFF800000#32) reducesTo_S50000x40_S50000_d1 h_S_ := by
  after_results_simp
  try simp only [TRef.ofBuf, TRef.toBuf, cast_eq]
  try rfl

/-- the minus infinity it is compared with, -/
theorem ta_v1 (W : Valuation τ sig (Elt F)) :
    after opsTa W (Proc.devRef .tc main_call1_v1)
      = broadcastInDim S50000 ![] bcast_S_S50000 (constant S_ .f32 0xFF800000#32) := by
  after_results_simp
  try simp only [TRef.ofBuf, TRef.toBuf, cast_eq]
  try rfl

/-- and the logits' buffer as it was. -/
theorem ta_v50 (W : Valuation τ sig (Elt F)) :
    after opsTa W (Proc.devRef .tc main_v50) = W (Proc.devRef .tc main_v50) := by
  after_results_simp

/-- The comparison: the maximum of the two. -/
theorem tb_v2 (W : Valuation τ sig (Elt F)) :
    after opsTb W (Proc.devRef .tc main_call1_v2)
      = maximumf (W (Proc.devRef .tc main_call1_v1)) (W (Proc.devRef .tc main_call1_v0)) := by
  after_results_simp
  try simp only [TRef.ofBuf, TRef.toBuf, cast_eq]
  try rfl

theorem tb_v50 (W : Valuation τ sig (Elt F)) :
    after opsTb W (Proc.devRef .tc main_v50) = W (Proc.devRef .tc main_v50) := by
  after_results_simp

/-- The last stretch: the logits shifted by the row maximum, minus the logarithm of the row sum of their exponentials. -/
theorem tc_v51 (W : Valuation τ sig (Elt F)) :
    after opsTc W (Proc.devRef .tc main_v51)
      = subf
          (subf (W (Proc.devRef .tc main_v50)) (broadcastInDim S50000x40 ![0, 1] bcast_S50000x1_S50000x40_0_1
            (broadcastInDim S50000x1 ![0] bcast_S50000_S50000x1_0 (W (Proc.devRef .tc main_call1_v2)))))
          (broadcastInDim S50000x40 ![0, 1] bcast_S50000x1_S50000x40_0_1 (Host.log (broadcastInDim S50000x1 ![0] bcast_S50000_S50000x1_0
            (Host.reduceAdd (Host.exp
              (subf (W (Proc.devRef .tc main_v50)) (broadcastInDim S50000x40 ![0, 1] bcast_S50000x1_S50000x40_0_1
                (broadcastInDim S50000x1 ![0] bcast_S50000_S50000x1_0 (W (Proc.devRef .tc main_call1_v2))))))
              (constant S_ .f32 0x00000000#32) reducesTo_S50000x40_S50000_d1 h_S_)))) := by
  after_results_simp
  try simp only [TRef.ofBuf, TRef.toBuf, cast_eq]
  try rfl

/-- The three stretches together take the logits' buffer to the result. -/
theorem tail51 (W : Valuation τ sig (Elt F)) :
    after (opsTa ++ (opsTb ++ opsTc)) W (Proc.devRef .tc main_v51) = tailFn (F := F) (W (Proc.devRef .tc main_v50)) := by
  rw [after_append, after_append, tc_v51, tb_v2, tb_v50, ta_v0, ta_v1, ta_v50]
  rfl

/-- The result's stage is that function of the logits' stage. -/
theorem val51_tail (x0 : (⟨S50000x100, .f32⟩ : BufTy).Contents (Elt F)) (x1 : (⟨S2x800000, .i32⟩ : BufTy).Contents (Elt F))
    (x2 : (⟨S100x16, .f32⟩ : BufTy).Contents (Elt F)) (x3 : (⟨S16, .f32⟩ : BufTy).Contents (Elt F))
    (x4 : (⟨S16x40, .f32⟩ : BufTy).Contents (Elt F)) (x5 : (⟨S40, .f32⟩ : BufTy).Contents (Elt F)) :
    val_main_v51 (F := F) x0 x1 x2 x3 x4 x5 = tailFn (F := F) (val_main_v50 (F := F) x0 x1 x2 x3 x4 x5) := rfl

/-- After all 80 operations the result's buffer holds the stage of that name. -/
theorem result51 (W : Valuation τ sig (Elt F)) :
    after ops W (Proc.devRef .tc main_v51)
      = val_main_v51 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [ops_split, after_append, tail51, main50]
  exact (val51_tail _ _ _ _ _ _).symm

set_option maxRecDepth 16384 in
set_option maxHeartbeats 4000000 in
/-- No operation writes an argument's buffer. -/
theorem kept (W : Valuation τ sig (Elt F)) :
    after ops W (Proc.devRef .tc main_arg0) = W (Proc.devRef .tc main_arg0)
    ∧ after ops W (Proc.devRef .tc main_arg1) = W (Proc.devRef .tc main_arg1)
    ∧ after ops W (Proc.devRef .tc main_arg2) = W (Proc.devRef .tc main_arg2)
    ∧ after ops W (Proc.devRef .tc main_arg3) = W (Proc.devRef .tc main_arg3)
    ∧ after ops W (Proc.devRef .tc main_arg4) = W (Proc.devRef .tc main_arg4)
    ∧ after ops W (Proc.devRef .tc main_arg5) = W (Proc.devRef .tc main_arg5) := by
  refine ⟨?_, ?_, ?_, ?_, ?_, ?_⟩ <;> after_results_simp

/-- On every device, from any memory with zero counters: every weakly fair execution of the reference terminates with
    the result at its stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = val_main_v51 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v51).trans (result51 _),
      (h c main_arg0).trans (kept _).1,
      (h c main_arg1).trans (kept _).2.1,
      (h c main_arg2).trans (kept _).2.2.1,
      (h c main_arg3).trans (kept _).2.2.2.1,
      (h c main_arg4).trans (kept _).2.2.2.2.1,
      (h c main_arg5).trans (kept _).2.2.2.2.2⟩)
    (run_seq scopedRefs_eq scopedSems_eq defs main (fun _ => ops) main_eq (fun _ => ops_sub) m ρ)

end Cert.ReferenceIdeal.ValueP

end
-- ==== Proof.RefHid.lean ====
/-
  The reference's hidden layer read at an entry.

  The reference gathers the node rows at the source column, accumulates them at the destination column, divides each
  row by the degree raised to at least one, multiplies by the first matrix, adds the bias and takes the maximum with
  zero: at (n, j) that is the hidden layer with the matrix applied last.
-/
import proofs.«158554_j82016695484547_1_alg».proof.Proof.RefRead
import proofs.«158554_j82016695484547_1_alg».proof.Proof.Cols
import proofs.«158554_j82016695484547_1_alg».proof.Proof.LibDenseLayer
import proofs.«158554_j82016695484547_1_alg».proof.Proof.LibRowOps

noncomputable section

open scoped BigOperators

namespace Cert.Sage.Ref

open Cert.ReferenceIdeal Cert.ReferenceIdeal.ReadP Idealize.ShloMosaic Idealize.ShloMosaic.ValueIdx

/-! ## The two columns of words -/

/-- The reshaped first row of the edge list at e: edge e's source word. -/
theorem v1_at (x1 : IVec S2x800000 32) (e : Fin 800000) :
    val_main_v1 (F := Ideal) x1 (ix1 e) = x1 (ix2 (0 : Fin 2) e) := by
  refine (val_main_v1_apply (F := Ideal) x1 _).trans ((val_main_v0_apply (F := Ideal) x1 _).trans ?_)
  refine congrArg x1 (funext fun a => Fin.ext ?_)
  match a with
  | ⟨0, _⟩ => rfl
  | ⟨1, _⟩ => exact Nat.mod_eq_of_lt e.isLt

/-- The reshaped second row of the edge list at e: edge e's destination word. -/
theorem v3_at (x1 : IVec S2x800000 32) (e : Fin 800000) :
    val_main_v3 (F := Ideal) x1 (ix1 e) = x1 (ix2 (1 : Fin 2) e) := by
  refine (val_main_v3_apply (F := Ideal) x1 _).trans ((val_main_v2_apply (F := Ideal) x1 _).trans ?_)
  refine congrArg x1 (funext fun a => Fin.ext ?_)
  match a with
  | ⟨0, _⟩ => rfl
  | ⟨1, _⟩ => exact Nat.mod_eq_of_lt e.isLt

/-- The vector of zeros the source words are compared with. -/
theorem v4_at (i : S800000.Idx) : val_main_v4 (F := Ideal) i = 0#32 := val_main_v4_apply (F := Ideal) i

/-- The vector of 50000s added to the negative source words. -/
theorem v6_at (i : S800000.Idx) : val_main_v6 (F := Ideal) i = 50000#32 := val_main_v6_apply (F := Ideal) i

/-- The wrapped source word of edge e: the word plus 50000 when it is negative. -/
theorem v8_at (x1 : IVec S2x800000 32) (e : Fin 800000) :
    val_main_v8 (F := Ideal) x1 (ix1 e) = Cert.Sage.srcWord x1 e := by
  rw [val_main_v8_apply, val_main_v5_apply, val_main_v7_apply, v4_at, v6_at, v1_at]
  rfl

/-- A one-column index (e, 0) read back along its first axis is e. -/
theorem col_idx (e : Fin 800000) (i : S800000.Idx) (h : (i 0).val = e.val) : i = ix1 e :=
  funext fun a => Fin.ext (by
    match a with
    | ⟨0, _⟩ => exact h)

/-- The source column at (e, 0). -/
theorem v9_at (x1 : IVec S2x800000 32) (e : Fin 800000) :
    val_main_v9 (F := Ideal) x1 (ix2 e (0 : Fin 1)) = Cert.Sage.srcWord x1 e :=
  (val_main_v9_apply (F := Ideal) x1 (ix2 e (0 : Fin 1))).trans
    ((congrArg (val_main_v8 (F := Ideal) x1) (col_idx e (idx_main_v9 (ix2 e (0 : Fin 1))) rfl)).trans (v8_at x1 e))

/-- The destination column of the rows' accumulation at (e, 0). -/
theorem v12_at (x1 : IVec S2x800000 32) (e : Fin 800000) :
    val_main_v12 (F := Ideal) x1 (ix2 e (0 : Fin 1)) = x1 (ix2 (1 : Fin 2) e) :=
  (val_main_v12_apply (F := Ideal) x1 (ix2 e (0 : Fin 1))).trans
    ((congrArg (val_main_v3 (F := Ideal) x1) (col_idx e (idx_main_v12 (ix2 e (0 : Fin 1))) rfl)).trans (v3_at x1 e))

/-- The destination column of the first count at (e, 0). -/
theorem v16_at (x1 : IVec S2x800000 32) (e : Fin 800000) :
    val_main_v16 (F := Ideal) x1 (ix2 e (0 : Fin 1)) = x1 (ix2 (1 : Fin 2) e) :=
  (val_main_v16_apply (F := Ideal) x1 (ix2 e (0 : Fin 1))).trans
    ((congrArg (val_main_v3 (F := Ideal) x1) (col_idx e (idx_main_v16 (ix2 e (0 : Fin 1))) rfl)).trans (v3_at x1 e))

/-- The destination column of the second count at (e, 0). -/
theorem v40_at (x1 : IVec S2x800000 32) (e : Fin 800000) :
    val_main_v40 (F := Ideal) x1 (ix2 e (0 : Fin 1)) = x1 (ix2 (1 : Fin 2) e) :=
  (val_main_v40_apply (F := Ideal) x1 (ix2 e (0 : Fin 1))).trans
    ((congrArg (val_main_v3 (F := Ideal) x1) (col_idx e (idx_main_v40 (ix2 e (0 : Fin 1))) rfl)).trans (v3_at x1 e))

/-! ## The constant arrays -/

/-- The array the rows are accumulated into is zero. -/
theorem v11_at (i : S50000x100.Idx) : val_main_v11 (F := Ideal) i = (0 : EReal) :=
  (val_main_v11_apply (F := Ideal) i).trans Ideal.ofBits_zero_f32

/-- The first count's updates are ones. -/
theorem v14_at (i : S800000.Idx) : val_main_v14 (F := Ideal) i = (1 : EReal) :=
  (val_main_v14_apply (F := Ideal) i).trans Ideal.ofBits_one_f32

/-- The vector the first count is accumulated into is zero. -/
theorem v15_at (i : S50000.Idx) : val_main_v15 (F := Ideal) i = (0 : EReal) :=
  (val_main_v15_apply (F := Ideal) i).trans Ideal.ofBits_zero_f32

/-- The floor of the first divisor is one. -/
theorem v18_at (i : S50000.Idx) : val_main_v18 (F := Ideal) i = (1 : EReal) :=
  (val_main_v18_apply (F := Ideal) i).trans Ideal.ofBits_one_f32

/-- The second count's updates are ones. -/
theorem v38_at (i : S800000.Idx) : val_main_v38 (F := Ideal) i = (1 : EReal) :=
  (val_main_v38_apply (F := Ideal) i).trans Ideal.ofBits_one_f32

/-- The vector the second count is accumulated into is zero. -/
theorem v39_at (i : S50000.Idx) : val_main_v39 (F := Ideal) i = (0 : EReal) :=
  (val_main_v39_apply (F := Ideal) i).trans Ideal.ofBits_zero_f32

/-- The floor of the second divisor is one. -/
theorem v42_at (i : S50000.Idx) : val_main_v42 (F := Ideal) i = (1 : EReal) :=
  (val_main_v42_apply (F := Ideal) i).trans Ideal.ofBits_one_f32

/-- The array the hidden layer is compared with is zero. -/
theorem relu_zero_at (i : S50000x16.Idx) : val_main_call0_v0 (F := Ideal) i = (0 : EReal) :=
  (val_main_call0_v0_apply (F := Ideal) i).trans Ideal.ofBits_zero_f32

/-! ## The degree and the divisor -/

/-- At the extended reals the host's accumulating scatter is the exact sum of the colliding updates. -/
theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

/-- The dimension numbers of the two counts, spelled out. -/
theorem count_dims_eq :
    scatter_S50000_S800000x1_S800000_n_0_0_1
      = (⟨[], [0], [0], 1, scatter_S50000_S800000x1_S800000_n_0_0_1.wf⟩ : ScatterDims S50000 S800000x1 S800000) := rfl

/-- Ones accumulated at the destination column: the degree of node n. -/
theorem v17_at (x1 : IVec S2x800000 32) (n : Fin 50000) :
    val_main_v17 (F := Ideal) x1 (ix1 n) = Cert.Sage.deg x1 n := by
  unfold val_main_v17
  rw [scatterAdd_ideal, count_dims_eq]
  exact Cert.Sage.deg_of_col x1 (val_main_v16 (F := Ideal) x1) (v16_at x1)
    scatter_S50000_S800000x1_S800000_n_0_0_1.wf (val_main_v15 (F := Ideal)) v15_at
    (val_main_v14 (F := Ideal)) v14_at n

/-- The second count of the edges landing on n: the same degree. -/
theorem v41_at (x1 : IVec S2x800000 32) (n : Fin 50000) :
    val_main_v41 (F := Ideal) x1 (ix1 n) = Cert.Sage.deg x1 n := by
  unfold val_main_v41
  rw [scatterAdd_ideal, count_dims_eq]
  exact Cert.Sage.deg_of_col x1 (val_main_v40 (F := Ideal) x1) (v40_at x1)
    scatter_S50000_S800000x1_S800000_n_0_0_1.wf (val_main_v39 (F := Ideal)) v39_at
    (val_main_v38 (F := Ideal)) v38_at n

/-- The divisor of the first layer's mean at node n. -/
theorem dmax19 (x1 : IVec S2x800000 32) (n : Fin 50000) :
    val_main_v19 (F := Ideal) x1 (ix1 n) = Cert.Sage.dmax x1 n := by
  rw [val_main_v19_apply, v17_at, v18_at, Ideal.maximumf_def]
  rfl

/-- The divisor of the second layer's mean at node n. -/
theorem dmax43 (x1 : IVec S2x800000 32) (n : Fin 50000) :
    val_main_v43 (F := Ideal) x1 (ix1 n) = Cert.Sage.dmax x1 n := by
  rw [val_main_v43_apply, v41_at, v42_at, Ideal.maximumf_def]
  rfl

/-! ## The mean of the node rows -/

/-- The dimension numbers of the rows' accumulation, spelled out. -/
theorem rows_dims_eq :
    scatter_S50000x100_S800000x1_S800000x100_1_0_0_1
      = (⟨[1], [0], [0], 1, scatter_S50000x100_S800000x1_S800000x100_1_0_0_1.wf⟩ :
          ScatterDims S50000x100 S800000x1 S800000x100) := rfl

/-- The gathered rows accumulated at the destination column: the aggregate of the node table. -/
theorem v13_at (x0 : FVec Ideal S50000x100 .f32) (x1 : IVec S2x800000 32) (n : Fin 50000) (k : Fin 100) :
    val_main_v13 (F := Ideal) x0 x1 (ix2 n k) = Cert.Sage.agg x1 (fun n k => x0 (ix2 n k)) n k := by
  unfold val_main_v13 val_main_v10
  rw [scatterAdd_ideal, rows_dims_eq]
  exact Cert.Sage.agg_of_cols x1 (val_main_v9 (F := Ideal) x1) (val_main_v12 (F := Ideal) x1) (v9_at x1) (v12_at x1)
    gather_S50000x100_S800000x1_S800000x100_1_0_n_n_0_1_1100 rfl rfl rfl rfl rfl
    scatter_S50000x100_S800000x1_S800000x100_1_0_0_1.wf (val_main_v11 (F := Ideal)) v11_at x0 n k

/-- The divisor column repeated along the row: at (n, k) the divisor of node n. -/
theorem v21_at (x1 : IVec S2x800000 32) (n : Fin 50000) (k : Fin 100) :
    val_main_v21 (F := Ideal) x1 (ix2 n k) = Cert.Sage.dmax x1 n := by
  refine (val_main_v21_apply (F := Ideal) x1 _).trans ((val_main_v20_apply (F := Ideal) x1 _).trans ?_)
  have h : idx_main_v20 (idx_main_v21 (ix2 n k)) = ix1 n := funext fun a => Fin.ext (by
    match a with
    | ⟨0, _⟩ => rfl)
  exact (congrArg (val_main_v19 (F := Ideal) x1) h).trans (dmax19 x1 n)

/-- The aggregate over the divisor: the mean of the node rows at (n, k). -/
theorem v22_at (x0 : FVec Ideal S50000x100 .f32) (x1 : IVec S2x800000 32) (n : Fin 50000) (k : Fin 100) :
    val_main_v22 (F := Ideal) x0 x1 (ix2 n k) = Cert.Sage.mean x1 (fun n k => x0 (ix2 n k)) n k := by
  rw [val_main_v22_apply, v13_at, v21_at, Ideal.hostDivf_def]
  rfl

/-! ## The dense layer -/

/-- The mean times the first matrix at (n, j). -/
theorem v23_at (x0 : FVec Ideal S50000x100 .f32) (x1 : IVec S2x800000 32) (x2 : FVec Ideal S100x16 .f32)
    (n : Fin 50000) (j : Fin 16) :
    val_main_v23 (F := Ideal) x0 x1 x2 (ix2 n j)
      = Cert.Sage.lin (Cert.Sage.mean x1 (fun n k => x0 (ix2 n k))) (fun k j => x2 (ix2 k j)) n j := by
  refine (val_main_v23_apply x0 x1 x2 _).trans ?_
  unfold Cert.Sage.lin
  refine Finset.sum_congr rfl fun k _ => ?_
  have hl : lidx_main_v23 (ix2 n j) k = ix2 n k := funext fun a => Fin.ext (by
    match a with
    | ⟨0, _⟩ => rfl
    | ⟨1, _⟩ => rfl)
  have hr : ridx_main_v23 (ix2 n j) k = ix2 k j := funext fun a => Fin.ext (by
    match a with
    | ⟨0, _⟩ => rfl
    | ⟨1, _⟩ => rfl)
  rw [hl, hr, v22_at]

/-- The bias laid as a row and repeated down the rows: at (n, j) the bias at j. -/
theorem v25_at (x3 : FVec Ideal S16 .f32) (n : Fin 50000) (j : Fin 16) :
    val_main_v25 (F := Ideal) x3 (ix2 n j) = x3 (ix1 j) := by
  refine (val_main_v25_apply (F := Ideal) x3 _).trans ((val_main_v24_apply (F := Ideal) x3 _).trans ?_)
  refine congrArg x3 (funext fun a => Fin.ext ?_)
  match a with
  | ⟨0, _⟩ => rfl

/-- The hidden layer at (n, j). -/
theorem hidden (x0 : FVec Ideal S50000x100 .f32) (x1 : IVec S2x800000 32) (x2 : FVec Ideal S100x16 .f32)
    (x3 : FVec Ideal S16 .f32) (n : Fin 50000) (j : Fin 16) :
    val_main_v27 (F := Ideal) x0 x1 x2 x3 (ix2 n j)
      = Cert.Sage.hidR x1 (fun n k => x0 (ix2 n k)) (fun k j => x2 (ix2 k j)) (fun j => x3 (ix1 j)) n j := by
  rw [val_main_v27_apply, val_main_v26_apply, v23_at, v25_at, relu_zero_at, Ideal.maximumf_def, Ideal.addf_def]
  rfl

end Cert.Sage.Ref

end
-- ==== Proof.RefVal.lean ====
/-
  The reference's result read at an entry.

  From the hidden layer the reference repeats the aggregation and the mean, multiplies by the second matrix, adds
  the bias and takes the row-wise log-softmax (the row's maximum once more against minus infinity, which changes
  nothing): at (n, j) that is the network with each matrix applied last.
-/
import proofs.«158554_j82016695484547_1_alg».proof.Proof.RefHid
import Mathlib.Data.Finset.Fold

noncomputable section

open scoped BigOperators

namespace Cert.Sage.Ref

open Cert.ReferenceIdeal Cert.ReferenceIdeal.ReadP Idealize.ShloMosaic Idealize.ShloMosaic.ValueIdx

/- The aggregate and the degree are sums over all 800000 edges: they are only ever read through the lemmas that state
   them, never opened. -/
attribute [local irreducible] Cert.Sage.agg Cert.Sage.deg

/-! ## Where each layout stage reads its operand

  A column [a, 1] repeated along a row reads (n, 0); a vector laid as a column reads n; the product reads row n of
  its left operand and column j of its right one; the row sum at n reads (n, l). -/

theorem idx45 (n : Fin 50000) (k : Fin 16) : idx_main_v45 (ix2 n k) = ix2 n (0 : Fin 1) :=
  funext fun a => Fin.ext (by match a with | ⟨0, _⟩ => rfl | ⟨1, _⟩ => rfl)

theorem idx44 (n : Fin 50000) : idx_main_v44 (ix2 n (0 : Fin 1)) = ix1 n :=
  funext fun a => Fin.ext (by match a with | ⟨0, _⟩ => rfl)

theorem lidx47 (n : Fin 50000) (j : Fin 40) (k : Fin 16) : lidx_main_v47 (ix2 n j) k = ix2 n k :=
  funext fun a => Fin.ext (by match a with | ⟨0, _⟩ => rfl | ⟨1, _⟩ => rfl)

theorem ridx47 (n : Fin 50000) (j : Fin 40) (k : Fin 16) : ridx_main_v47 (ix2 n j) k = ix2 k j :=
  funext fun a => Fin.ext (by match a with | ⟨0, _⟩ => rfl | ⟨1, _⟩ => rfl)

theorem idx49 (n : Fin 50000) (j : Fin 40) : idx_main_v49 (ix2 n j) = ix2 (0 : Fin 1) j :=
  funext fun a => Fin.ext (by match a with | ⟨0, _⟩ => rfl | ⟨1, _⟩ => rfl)

theorem idx48 (j : Fin 40) : idx_main_v48 (ix2 (0 : Fin 1) j) = ix1 j :=
  funext fun a => Fin.ext (by match a with | ⟨0, _⟩ => rfl)

theorem idxc4 (n : Fin 50000) (j : Fin 40) : idx_main_call1_v4 (ix2 n j) = ix2 n (0 : Fin 1) :=
  funext fun a => Fin.ext (by match a with | ⟨0, _⟩ => rfl | ⟨1, _⟩ => rfl)

theorem idxc3 (n : Fin 50000) : idx_main_call1_v3 (ix2 n (0 : Fin 1)) = ix1 n :=
  funext fun a => Fin.ext (by match a with | ⟨0, _⟩ => rfl)

theorem idxc7 (n : Fin 50000) (l : Fin 40) : idx_main_call1_v7 (ix1 n) l = ix2 n l :=
  funext fun a => Fin.ext (by match a with | ⟨0, _⟩ => rfl | ⟨1, _⟩ => rfl)

theorem idxc10 (n : Fin 50000) (j : Fin 40) : idx_main_call1_v10 (ix2 n j) = ix2 n (0 : Fin 1) :=
  funext fun a => Fin.ext (by match a with | ⟨0, _⟩ => rfl | ⟨1, _⟩ => rfl)

theorem idxc8 (n : Fin 50000) : idx_main_call1_v8 (ix2 n (0 : Fin 1)) = ix1 n :=
  funext fun a => Fin.ext (by match a with | ⟨0, _⟩ => rfl)

/-! ## The two columns of the second aggregation -/

/-- The source column of the second gather at (e, 0): edge e's wrapped source word. -/
theorem srcCol33 (x1 : IVec S2x800000 32) (e : Fin 800000) :
    val_main_v33 (F := Ideal) x1 (ix2 e (0 : Fin 1)) = Cert.Sage.srcWord x1 e := by
  unfold val_main_v33 val_main_v32 val_main_v29 val_main_v31 val_main_v28 val_main_v30 val_main_v1 val_main_v0
    val_main_c_4 val_main_c_5
  exact Cert.Sage.srcCol_apply x1 _ _ _ _ e

/-- The destination column of the second scatter at (e, 0): edge e's destination word. -/
theorem dstCol36 (x1 : IVec S2x800000 32) (e : Fin 800000) :
    val_main_v36 (F := Ideal) x1 (ix2 e (0 : Fin 1)) = x1 (ix2 (1 : Fin 2) e) := by
  unfold val_main_v36 val_main_v3 val_main_v2
  exact Cert.Sage.dstCol_apply x1 _ _ _ e

/-- The array the second scatter accumulates into is zero. -/
theorem zero35 (i : S50000x16.Idx) : val_main_v35 (F := Ideal) i = 0 :=
  (val_main_v35_apply i).trans ((val_main_cst_6_apply _).trans ((Ideal.ofBits_def _).trans Ideal.ofBits_zero_f32))

section stages

variable (x0 : FVec Ideal S50000x100 .f32) (x1 : IVec S2x800000 32) (x2 : FVec Ideal S100x16 .f32)
  (x3 : FVec Ideal S16 .f32) (x4 : FVec Ideal S16x40 .f32) (x5 : FVec Ideal S40 .f32)

/-! ## The second layer -/

/-- At the extended reals the host's accumulating scatter is the exact sum of the colliding updates. -/
theorem scatterAdd_exact {s si u : Shape} {w : Nat} {φ : FTy} (d : ScatterDims s si u) (x : FVec Ideal s φ)
    (idx : IVec si w) (upd : FVec Ideal u φ) :
    Host.scatterAdd d x idx upd = Ideal.hostScatterAdd d x idx upd := rfl

/-- The dimension numbers of the second accumulation, spelled out. -/
theorem rows16_dims_eq :
    scatter_S50000x16_S800000x1_S800000x16_1_0_0_1
      = (⟨[1], [0], [0], 1, scatter_S50000x16_S800000x1_S800000x16_1_0_0_1.wf⟩ :
          ScatterDims S50000x16 S800000x1 S800000x16) := rfl

/-- The second aggregate at (n, k), over the table the program holds: its rows summed over the edges landing on n. -/
theorem agg37_rows (n : Fin 50000) (k : Fin 16) :
    val_main_v37 (F := Ideal) x0 x1 x2 x3 (ix2 n k)
      = Cert.Sage.agg x1 (fun n k => val_main_v27 (F := Ideal) x0 x1 x2 x3 (ix2 n k)) n k := by
  unfold val_main_v37 val_main_v34
  rw [scatterAdd_exact, rows16_dims_eq]
  exact Cert.Sage.agg_of_cols x1 (val_main_v33 (F := Ideal) x1) (val_main_v36 (F := Ideal) x1) (srcCol33 x1) (dstCol36 x1)
    gather_S50000x16_S800000x1_S800000x16_1_0_n_n_0_1_116 rfl rfl rfl rfl rfl
    scatter_S50000x16_S800000x1_S800000x16_1_0_0_1.wf (val_main_v35 (F := Ideal)) zero35
    (val_main_v27 (F := Ideal) x0 x1 x2 x3) n k

/-- The second aggregate at (n, k): the hidden layer's rows summed over the edges landing on n. -/
theorem agg37 (n : Fin 50000) (k : Fin 16) :
    val_main_v37 (F := Ideal) x0 x1 x2 x3 (ix2 n k)
      = Cert.Sage.agg x1 (Cert.Sage.hidR x1 (fun n k => x0 (ix2 n k)) (fun k j => x2 (ix2 k j)) (fun j => x3 (ix1 j))) n k :=
  (agg37_rows x0 x1 x2 x3 n k).trans
    (congrArg (fun T : Fin 50000 → Fin 16 → EReal => Cert.Sage.agg x1 T n k)
      (funext fun a => funext fun b => hidden x0 x1 x2 x3 a b))

/-- The divisor of the second mean, repeated along the row, at (n, k). -/
theorem div45 (n : Fin 50000) (k : Fin 16) : val_main_v45 (F := Ideal) x1 (ix2 n k) = Cert.Sage.dmax x1 n := by
  rw [val_main_v45_apply, idx45, val_main_v44_apply, idx44]
  exact dmax43 x1 n

/-- The second mean at (n, k). -/
theorem mean46 (n : Fin 50000) (k : Fin 16) :
    val_main_v46 (F := Ideal) x0 x1 x2 x3 (ix2 n k)
      = Cert.Sage.mean x1 (Cert.Sage.hidR x1 (fun n k => x0 (ix2 n k)) (fun k j => x2 (ix2 k j)) (fun j => x3 (ix1 j))) n k := by
  rw [val_main_v46_apply, Ideal.hostDivf_def, agg37, div45]
  rfl

/-- The bias of the second layer, laid as a row and repeated down the rows, at (n, j). -/
theorem bias49 (n : Fin 50000) (j : Fin 40) : val_main_v49 (F := Ideal) x5 (ix2 n j) = x5 (ix1 j) := by
  rw [val_main_v49_apply, idx49, val_main_v48_apply, idx48]

/-- The logits at (n, j). -/
theorem logit50 (n : Fin 50000) (j : Fin 40) :
    val_main_v50 (F := Ideal) x0 x1 x2 x3 x4 x5 (ix2 n j)
      = Cert.Sage.logitR x1 (fun n k => x0 (ix2 n k)) (fun k j => x2 (ix2 k j)) (fun j => x3 (ix1 j))
          (fun k j => x4 (ix2 k j)) (fun j => x5 (ix1 j)) n j := by
  rw [val_main_v50_apply, Ideal.addf_def, bias49, val_main_v47_apply]
  unfold Cert.Sage.logitR Cert.Sage.lin
  refine congrArg (· + x5 (ix1 j)) (Finset.sum_congr rfl fun k _ => ?_)
  rw [lidx47, ridx47, mean46]

/-! ## The row-wise log-softmax -/

/-- The row's maximum at n: taking it once more against the fold's own starting value changes nothing. -/
theorem rowmax2 (n : Fin 50000) :
    val_main_call1_v2 (F := Ideal) x0 x1 x2 x3 x4 x5 (ix1 n)
      = (Finset.univ : Finset (Fin 40)).fold max (Ideal.ofBits .f32 0xFF800000#32)
          (Cert.Sage.logitR x1 (fun n k => x0 (ix2 n k)) (fun k j => x2 (ix2 k j)) (fun j => x3 (ix1 j))
            (fun k j => x4 (ix2 k j)) (fun j => x5 (ix1 j)) n) := by
  have h0 : val_main_call1_v0 (F := Ideal) x0 x1 x2 x3 x4 x5 (ix1 n)
      = (Finset.univ : Finset (Fin 40)).fold max (Ideal.ofBits .f32 0xFF800000#32)
          (Cert.Sage.logitR x1 (fun n k => x0 (ix2 n k)) (fun k j => x2 (ix2 k j)) (fun j => x3 (ix1 j))
            (fun k j => x4 (ix2 k j)) (fun j => x5 (ix1 j)) n) := by
    unfold val_main_call1_v0
    refine (RowOps.hostReduce_maximumf_row (φ := .f32) (val_main_v50 (F := Ideal) x0 x1 x2 x3 x4 x5)
      (val_main_call1_cst (F := Ideal)) _ (by decide) _ n).trans ?_
    exact congrArg (fun f : Fin 40 → EReal => (Finset.univ : Finset (Fin 40)).fold max (Ideal.ofBits .f32 0xFF800000#32) f)
      (funext fun l => logit50 x0 x1 x2 x3 x4 x5 n l)
  have h1 : val_main_call1_v1 (F := Ideal) (ix1 n) = Ideal.ofBits .f32 0xFF800000#32 :=
    (val_main_call1_v1_apply _).trans ((val_main_call1_cst_0_apply _).trans (Ideal.ofBits_def _))
  rw [val_main_call1_v2_apply, Ideal.maximumf_def, h1, h0]
  exact max_eq_right ((Finset.le_fold_max _).mpr (Or.inl le_rfl))

/-- The row's maximum repeated along the row, at (n, j). -/
theorem rowmax4 (n : Fin 50000) (j : Fin 40) :
    val_main_call1_v4 (F := Ideal) x0 x1 x2 x3 x4 x5 (ix2 n j)
      = (Finset.univ : Finset (Fin 40)).fold max (Ideal.ofBits .f32 0xFF800000#32)
          (Cert.Sage.logitR x1 (fun n k => x0 (ix2 n k)) (fun k j => x2 (ix2 k j)) (fun j => x3 (ix1 j))
            (fun k j => x4 (ix2 k j)) (fun j => x5 (ix1 j)) n) := by
  rw [val_main_call1_v4_apply, idxc4, val_main_call1_v3_apply, idxc3]
  exact rowmax2 x0 x1 x2 x3 x4 x5 n

/-- The shifted logits at (n, j). -/
theorem shift5 (n : Fin 50000) (j : Fin 40) :
    val_main_call1_v5 (F := Ideal) x0 x1 x2 x3 x4 x5 (ix2 n j)
      = Cert.Sage.logitR x1 (fun n k => x0 (ix2 n k)) (fun k j => x2 (ix2 k j)) (fun j => x3 (ix1 j))
          (fun k j => x4 (ix2 k j)) (fun j => x5 (ix1 j)) n j
        - (Finset.univ : Finset (Fin 40)).fold max (Ideal.ofBits .f32 0xFF800000#32)
          (Cert.Sage.logitR x1 (fun n k => x0 (ix2 n k)) (fun k j => x2 (ix2 k j)) (fun j => x3 (ix1 j))
            (fun k j => x4 (ix2 k j)) (fun j => x5 (ix1 j)) n) := by
  rw [val_main_call1_v5_apply, Ideal.subf_def, logit50, rowmax4]

/-- The sum of the exponentials of the shifted row, at n: the sum starts from zero. -/
theorem expsum7 (n : Fin 50000) :
    val_main_call1_v7 (F := Ideal) x0 x1 x2 x3 x4 x5 (ix1 n)
      = ∑ l : Fin 40, Ideal.exp (Cert.Sage.logitR x1 (fun n k => x0 (ix2 n k)) (fun k j => x2 (ix2 k j)) (fun j => x3 (ix1 j))
          (fun k j => x4 (ix2 k j)) (fun j => x5 (ix1 j)) n l
        - (Finset.univ : Finset (Fin 40)).fold max (Ideal.ofBits .f32 0xFF800000#32)
          (Cert.Sage.logitR x1 (fun n k => x0 (ix2 n k)) (fun k j => x2 (ix2 k j)) (fun j => x3 (ix1 j))
            (fun k j => x4 (ix2 k j)) (fun j => x5 (ix1 j)) n)) := by
  have hc : ∀ i : S_.Idx, val_main_call1_cst_1 (F := Ideal) i = 0 := fun i =>
    (val_main_call1_cst_1_apply i).trans ((Ideal.ofBits_def _).trans Ideal.ofBits_zero_f32)
  refine (val_main_call1_v7_apply x0 x1 x2 x3 x4 x5 (ix1 n)).trans ?_
  rw [hc, zero_add]
  refine Finset.sum_congr rfl fun l _ => ?_
  rw [idxc7, val_main_call1_v6_apply, Ideal.hostUnary_exp_def, shift5]

/-- The logarithm of that sum, repeated along the row, at (n, j). -/
theorem logsum10 (n : Fin 50000) (j : Fin 40) :
    val_main_call1_v10 (F := Ideal) x0 x1 x2 x3 x4 x5 (ix2 n j)
      = Ideal.log (∑ l : Fin 40, Ideal.exp (Cert.Sage.logitR x1 (fun n k => x0 (ix2 n k)) (fun k j => x2 (ix2 k j)) (fun j => x3 (ix1 j))
          (fun k j => x4 (ix2 k j)) (fun j => x5 (ix1 j)) n l
        - (Finset.univ : Finset (Fin 40)).fold max (Ideal.ofBits .f32 0xFF800000#32)
          (Cert.Sage.logitR x1 (fun n k => x0 (ix2 n k)) (fun k j => x2 (ix2 k j)) (fun j => x3 (ix1 j))
            (fun k j => x4 (ix2 k j)) (fun j => x5 (ix1 j)) n))) := by
  rw [val_main_call1_v10_apply, idxc10, val_main_call1_v9_apply, Ideal.hostUnary_log_def, val_main_call1_v8_apply, idxc8,
    expsum7]

end stages

/-- The reference's result at (n, j). -/
theorem ref_value (x0 : FVec Ideal S50000x100 .f32) (x1 : IVec S2x800000 32) (x2 : FVec Ideal S100x16 .f32)
    (x3 : FVec Ideal S16 .f32) (x4 : FVec Ideal S16x40 .f32) (x5 : FVec Ideal S40 .f32) (n : Fin 50000) (j : Fin 40) :
    val_main_v51 (F := Ideal) x0 x1 x2 x3 x4 x5 (ix2 n j)
      = Cert.Sage.RV x1 (fun n k => x0 (ix2 n k)) (fun k j => x2 (ix2 k j)) (fun j => x3 (ix1 j))
          (fun k j => x4 (ix2 k j)) (fun j => x5 (ix1 j)) n j := by
  rw [val_main_v51_apply, Ideal.subf_def, shift5, logsum10]
  rfl

end Cert.Sage.Ref

end
-- ==== Proof.SpecAlg.lean ====
/-
  The two orders of the two-layer mean-aggregation network agree on finite inputs.

  On the extended reals the product does not distribute over the sum at the infinities, so every step is
  carried out on real numbers and transported back along the coercion. Three facts carry the proof:
  the divisor of the mean is a real number not below one, so dividing by it is multiplying by a real number;
  for a table of reals and a matrix of reals, aggregating the rows times the matrix and then dividing equals
  the divided aggregate times the matrix (the two finite sums exchange and the real factor distributes);
  every operation of the network keeps real entries real, so the second layer meets the same hypothesis
  as the first.
-/
import proofs.«158554_j82016695484547_1_alg».proof.Proof.Spec

noncomputable section

open scoped BigOperators

namespace Cert.Sage

open Idealize.ShloMosaic

/-! ### Extended reals that are real numbers -/

/-- The extended real x is (the coercion of) a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion of the reals commutes with the maximum of two numbers. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem IsReal.max {x y : EReal} (hx : IsReal x) (hy : IsReal y) : IsReal (max x y) := by
  obtain ⟨a, rfl⟩ := hx
  obtain ⟨b, rfl⟩ := hy
  exact ⟨Max.max a b, coe_max a b⟩

/-- The coercion of the reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The coercion of the reals commutes with a guarded value whose other branch is zero. -/
theorem coe_ite (p : Prop) [Decidable p] (a : ℝ) :
    ((if p then a else 0 : ℝ) : EReal) = if p then (a : EReal) else 0 := by
  by_cases h : p
  · rw [if_pos h, if_pos h]
  · rw [if_neg h, if_neg h, EReal.coe_zero]

theorem IsReal.sum {ι : Type*} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact IsReal.add (h a (Finset.mem_insert_self a s))
      (ih fun i hi => h i (Finset.mem_insert_of_mem hi))

/-! ### The exchange of the two sums, on the reals -/

/-- On the reals: the guarded sum over the edges of the rows times a column, scaled by c, is the sum over the
    contracted coordinate of the scaled guarded sum of the rows' entries times the column's entry. -/
theorem core_real {ι N : Type*} [Fintype ι] {K : ℕ} (p : ι → Prop) [DecidablePred p] (r : ι → N)
    (T : N → Fin K → ℝ) (w : Fin K → ℝ) (c : ℝ) :
    (0 + ∑ e : ι, if p e then ∑ k : Fin K, T (r e) k * w k else 0) * c
      = ∑ k : Fin K, ((0 + ∑ e : ι, if p e then T (r e) k else 0) * c) * w k := by
  have h1 : ∀ e : ι, (if p e then ∑ k : Fin K, T (r e) k * w k else 0)
      = ∑ k : Fin K, (if p e then T (r e) k else 0) * w k := by
    intro e
    by_cases h : p e
    · rw [if_pos h]
      exact Finset.sum_congr rfl fun k _ => by rw [if_pos h]
    · rw [if_neg h]
      exact (Finset.sum_eq_zero fun k _ => by rw [if_neg h, zero_mul]).symm
  simp only [zero_add, h1]
  rw [Finset.sum_comm, Finset.sum_mul]
  refine Finset.sum_congr rfl fun k _ => ?_
  simp only [Finset.sum_mul]
  exact Finset.sum_congr rfl fun e _ => by ring

/-- The same exchange on the extended reals, for real entries: both sides are the coercion of the two sides
    of the real identity. -/
theorem core_ereal {ι N : Type*} [Fintype ι] {K : ℕ} (p : ι → Prop) [DecidablePred p] (r : ι → N)
    (T : N → Fin K → ℝ) (w : Fin K → ℝ) (c : ℝ) :
    (0 + ∑ e : ι, if p e then ∑ k : Fin K, (T (r e) k : EReal) * (w k : EReal) else 0) * (c : EReal)
      = ∑ k : Fin K, ((0 + ∑ e : ι, if p e then (T (r e) k : EReal) else 0) * (c : EReal)) * (w k : EReal) := by
  have hL : (((0 + ∑ e : ι, if p e then ∑ k : Fin K, T (r e) k * w k else 0) * c : ℝ) : EReal)
      = (0 + ∑ e : ι, if p e then ∑ k : Fin K, (T (r e) k : EReal) * (w k : EReal) else 0) * (c : EReal) := by
    simp only [EReal.coe_mul, EReal.coe_add, EReal.coe_zero, coe_sum, coe_ite]
  have hR : ((∑ k : Fin K, ((0 + ∑ e : ι, if p e then T (r e) k else 0) * c) * w k : ℝ) : EReal)
      = ∑ k : Fin K, ((0 + ∑ e : ι, if p e then (T (r e) k : EReal) else 0) * (c : EReal)) * (w k : EReal) := by
    simp only [EReal.coe_mul, EReal.coe_add, EReal.coe_zero, coe_sum, coe_ite]
  rw [← hL, ← hR, core_real p r T w c]

/-! ### The divisor of the mean -/

/-- The divisor of the mean is a real number, and it is not zero (it is at least one). -/
theorem dmax_real (ei : Edges) (n : Fin 50000) : ∃ d : ℝ, d ≠ 0 ∧ dmax ei n = (d : EReal) := by
  refine ⟨Max.max (0 + ∑ e : Fin 800000, if hit ei n e then (1 : ℝ) else 0) 1, ?_, ?_⟩
  · exact (lt_of_lt_of_le one_pos (le_max_right _ _)).ne'
  · unfold dmax deg
    rw [← coe_max, EReal.coe_add, EReal.coe_zero, coe_sum, EReal.coe_one]
    simp only [coe_ite, EReal.coe_one]

/-! ### Real entries are kept -/

theorem agg_isReal {C : ℕ} (ei : Edges) (T : Fin 50000 → Fin C → EReal) (hT : ∀ n k, IsReal (T n k))
    (n : Fin 50000) (j : Fin C) : IsReal (agg ei T n j) := by
  unfold agg
  refine IsReal.add IsReal.zero (IsReal.sum _ _ fun e _ => ?_)
  by_cases h : hit ei n e
  · rw [if_pos h]
    exact hT _ _
  · rw [if_neg h]
    exact IsReal.zero

theorem mean_isReal {C : ℕ} (ei : Edges) (T : Fin 50000 → Fin C → EReal) (hT : ∀ n k, IsReal (T n k))
    (n : Fin 50000) (k : Fin C) : IsReal (mean ei T n k) := by
  obtain ⟨d, hd, hdm⟩ := dmax_real ei n
  unfold mean
  rw [hdm, Ideal.div_coe hd]
  exact IsReal.mul (agg_isReal ei T hT n k) (IsReal.coe _)

theorem lin_isReal {K J : ℕ} (A : Fin 50000 → Fin K → EReal) (W : Fin K → Fin J → EReal)
    (hA : ∀ n k, IsReal (A n k)) (hW : ∀ k j, IsReal (W k j)) (n : Fin 50000) (j : Fin J) :
    IsReal (lin A W n j) := by
  unfold lin
  exact IsReal.sum _ _ fun k _ => IsReal.mul (hA n k) (hW k j)

/-! ### One layer: the matrix before or after the mean -/

/-- For a table of reals and a matrix of reals: the aggregate of the rows times the matrix, divided by the
    mean's divisor, is the mean of the rows times the matrix. -/
theorem agg_lin_div {K J : ℕ} (ei : Edges) (T : Fin 50000 → Fin K → EReal) (W : Fin K → Fin J → EReal)
    (hT : ∀ n k, IsReal (T n k)) (hW : ∀ k j, IsReal (W k j)) (n : Fin 50000) (j : Fin J) :
    Ideal.div (agg ei (lin T W) n j) (dmax ei n) = lin (mean ei T) W n j := by
  obtain ⟨d, hd, hdm⟩ := dmax_real ei n
  have hTx : ∀ m k, ∃ x : ℝ, T m k = (x : EReal) := hT
  have hWx : ∀ k i, ∃ x : ℝ, W k i = (x : EReal) := hW
  choose T' hT' using hTx
  choose W' hW' using hWx
  have hTe : T = fun m k => (T' m k : EReal) := funext fun m => funext fun k => hT' m k
  have hWe : W = fun k i => (W' k i : EReal) := funext fun k => funext fun i => hW' k i
  subst hTe
  subst hWe
  unfold lin mean agg
  rw [hdm]
  simp only [Ideal.div_coe hd]
  exact core_ereal (hit ei n) (srcRow ei) T' (fun k => W' k j) (1 / d)

/-! ### The two layers and the network -/

theorem hidK_eq_hidR (ei : Edges) (X : Fin 50000 → Fin 100 → EReal) (W1 : Fin 100 → Fin 16 → EReal)
    (b1 : Fin 16 → EReal) (hX : ∀ n k, IsReal (X n k)) (hW1 : ∀ k j, IsReal (W1 k j)) :
    hidK ei X W1 b1 = hidR ei X W1 b1 := by
  funext n j
  unfold hidK hidR
  rw [agg_lin_div ei X W1 hX hW1 n j]

theorem hidR_isReal (ei : Edges) (X : Fin 50000 → Fin 100 → EReal) (W1 : Fin 100 → Fin 16 → EReal)
    (b1 : Fin 16 → EReal) (hX : ∀ n k, IsReal (X n k)) (hW1 : ∀ k j, IsReal (W1 k j))
    (hb1 : ∀ j, IsReal (b1 j)) (n : Fin 50000) (j : Fin 16) : IsReal (hidR ei X W1 b1 n j) := by
  unfold hidR
  exact IsReal.max (IsReal.add (lin_isReal _ _ (mean_isReal ei X hX) hW1 n j) (hb1 j)) IsReal.zero

theorem logitK_eq_logitR (ei : Edges) (X : Fin 50000 → Fin 100 → EReal) (W1 : Fin 100 → Fin 16 → EReal)
    (b1 : Fin 16 → EReal) (W2 : Fin 16 → Fin 40 → EReal) (b2 : Fin 40 → EReal)
    (hX : ∀ n k, IsReal (X n k)) (hW1 : ∀ k j, IsReal (W1 k j)) (hb1 : ∀ j, IsReal (b1 j))
    (hW2 : ∀ k j, IsReal (W2 k j)) :
    logitK ei X W1 b1 W2 b2 = logitR ei X W1 b1 W2 b2 := by
  funext n j
  unfold logitK logitR
  rw [hidK_eq_hidR ei X W1 b1 hX hW1,
    agg_lin_div ei (hidR ei X W1 b1) W2 (hidR_isReal ei X W1 b1 hX hW1 hb1) hW2 n j]

/-- On finite inputs the network with each matrix applied before the aggregation equals the network with each
    matrix applied after the aggregation and the division. -/
theorem KV_eq_RV (ei : Edges) (X : Fin 50000 → Fin 100 → EReal) (W1 : Fin 100 → Fin 16 → EReal) (b1 : Fin 16 → EReal)
    (W2 : Fin 16 → Fin 40 → EReal) (b2 : Fin 40 → EReal)
    (hX : ∀ n k, ∃ r : ℝ, X n k = (r : EReal)) (hW1 : ∀ k j, ∃ r : ℝ, W1 k j = (r : EReal)) (hb1 : ∀ j, ∃ r : ℝ, b1 j = (r : EReal))
    (hW2 : ∀ k j, ∃ r : ℝ, W2 k j = (r : EReal)) :
    KV ei X W1 b1 W2 b2 = RV ei X W1 b1 W2 b2 := by
  funext n j
  unfold KV RV
  rw [logitK_eq_logitR ei X W1 b1 W2 b2 hX hW1 hb1 hW2]

end Cert.Sage

end
-- ==== Proof.PreFin.lean ====
import proofs.«158554_j82016695484547_1_alg».proof.Pre_finite_inputs
import proofs.«158554_j82016695484547_1_alg».proof.Proof.Gen.Pre_finite_inputs
import Idealize.ShloMosaic.PureOps.Ideal.Laws
import Idealize.ShloMosaic.Lib.ValueIdx
import Idealize.ShloMosaic.Lib.ReduceAll

/-!
  The printed predicate "every float input is finite", read back at the ideal (extended-real) instance.

  The predicate joins, by `and`, five bits; each bit is the `and` over all entries of one array of the comparison
  `|x| < +∞`, where `|x|` is `max x (-x)` on the extended reals and `+∞` is what the single-precision pattern
  `0x7F800000` denotes. If the joined bit is 1, each of the five bits is 1, so each comparison holds at each entry,
  so each entry `x` has `max x (-x) < ⊤`: it is neither `⊤` nor `⊥`, hence a real number.
-/

noncomputable section

namespace Cert.Pre_finite_inputs.Fin

open Idealize.ShloMosaic Cert.Pre_finite_inputs

/-- The single-precision pattern `0x7F800000` (exponent all ones, significand zero, sign clear) denotes `+∞`. -/
theorem ofBits_inf : Ideal.ofBits .f32 0x7F800000#32 = (⊤ : EReal) := by
  simp [Ideal.ofBits, Ideal.ieee]

/-- An extended real whose absolute value `max x (-x)` lies strictly below `+∞` is a real number:
    `x = ⊤` gives `max ⊤ ⊥ = ⊤` and `x = ⊥` gives `max ⊥ ⊤ = ⊤`, neither below `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has one index. -/
instance subsingleton_idx : Subsingleton S_.Idx := ⟨fun a b => funext fun d => d.elim0⟩

/-- One array's bit: if the `and` over all entries of `|x| < +∞` is 1, every entry of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ValueIdx.ix0 = 1#1)
    (i : s.Idx) : ∃ r : ℝ, x i = (r : EReal) := by
  -- the entry's comparison bit is 1
  have hi := Host.reduce_andi_all _ _ hr hu ValueIdx.ix0 e i
  -- the comparison at the entry is `max (x i) (-(x i)) < ⊤`
  have hlt : max (x i) (-(x i)) < (⊤ : EReal) := by
    have h1 : Ideal.cmp .olt (max (x i) (-(x i))) (Ideal.ofBits .f32 0x7F800000#32) = 1#1 := hi
    rw [ofBits_inf] at h1
    by_contra hc
    simp [Ideal.cmp, hc] at h1
  exact real_of_abs_lt_top _ hlt

/-- The predicate's value 1 makes every entry of the four float arrays `x0`, `x2`, `x3`, `x4` a real number. -/
theorem finite_of_pre (x0 : FVec Ideal S50000x100 .f32) (x1 : IVec S2x800000 32) (x2 : FVec Ideal S100x16 .f32)
    (x3 : FVec Ideal S16 .f32) (x4 : FVec Ideal S16x40 .f32) (x5 : FVec Ideal S40 .f32)
    (h : Cert.Pre_finite_inputs.fn (F := Ideal) x0 x1 x2 x3 x4 x5 = fun _ => 1#1) :
    (∀ i, ∃ r : ℝ, x0 i = (r : EReal)) ∧ (∀ i, ∃ r : ℝ, x2 i = (r : EReal)) ∧
      (∀ i, ∃ r : ℝ, x3 i = (r : EReal)) ∧ (∀ i, ∃ r : ℝ, x4 i = (r : EReal)) := by
  have h0 := congrFun h ValueIdx.ix0
  dsimp only [Cert.Pre_finite_inputs.fn, Cert.Pre_finite_inputs.fn_part1] at h0
  -- the joined bit is ((((b0 ∧ b2) ∧ b3) ∧ b4) ∧ b5)
  obtain ⟨h0123, -⟩ := IntOp.andi_eq_one.1 h0
  obtain ⟨h012, e4⟩ := IntOp.andi_eq_one.1 h0123
  obtain ⟨h01, e3⟩ := IntOp.andi_eq_one.1 h012
  obtain ⟨e0, e2⟩ := IntOp.andi_eq_one.1 h01
  exact ⟨real_of_all x0 _ _ _ e0, real_of_all x2 _ _ _ e2, real_of_all x3 _ _ _ e3, real_of_all x4 _ _ _ e4⟩

end Cert.Pre_finite_inputs.Fin

end
-- ==== Proof.lean ====
/-
  The two-layer mean-aggregation graph network: the kernel program applies each layer's matrix to the node rows
  before the edge aggregation and divides by the degree afterwards; the reference aggregates, divides, and applies
  the matrix last. At the ideal values a change of float format is the identity and both programs' products and sums
  are exact, so on finite inputs the two orders give the same logits (a layer is linear, the aggregate is a finite sum,
  the divisor is a real number not below one), and the closing row-wise log-softmax is one function of the logits.

  The frames of the two kernel programs are the generated ones; the reference's frame is its run with the result
  dropped; the idealization rewrote nothing. For the value claim the kernel program's run names its result's buffer
  at the last boundary's contents, which is read back through the three regions and the host stretches to the
  network of the first order at every entry; the reference's run is read stage by stage to the network of the second
  order; the precondition makes every float input a real number, and the two networks agree there.
-/
import proofs.«158554_j82016695484547_1_alg».proof.Defs
import proofs.«158554_j82016695484547_1_alg».proof.Proof.Gen.Kernel
import proofs.«158554_j82016695484547_1_alg».proof.Proof.Gen.Kernel.Skeleton
import proofs.«158554_j82016695484547_1_alg».proof.Proof.Gen.Kernel.Launch
import proofs.«158554_j82016695484547_1_alg».proof.Proof.Gen.Kernel.Points
import proofs.«158554_j82016695484547_1_alg».proof.Proof.Gen.Kernel.Frame
import proofs.«158554_j82016695484547_1_alg».proof.Proof.Gen.KernelIdeal
import proofs.«158554_j82016695484547_1_alg».proof.Proof.Gen.KernelIdeal.Skeleton
import proofs.«158554_j82016695484547_1_alg».proof.Proof.Gen.KernelIdeal.Launch
import proofs.«158554_j82016695484547_1_alg».proof.Proof.Gen.KernelIdeal.Points
import proofs.«158554_j82016695484547_1_alg».proof.Proof.Gen.KernelIdeal.Frame
import proofs.«158554_j82016695484547_1_alg».proof.Proof.Gen.ReferenceIdeal
import proofs.«158554_j82016695484547_1_alg».proof.Proof.Gen.Pre_finite_inputs
import proofs.«158554_j82016695484547_1_alg».proof.Proof.KRun
import proofs.«158554_j82016695484547_1_alg».proof.Proof.KVal
import proofs.«158554_j82016695484547_1_alg».proof.Proof.KValE
import proofs.«158554_j82016695484547_1_alg».proof.Proof.RefOps
import proofs.«158554_j82016695484547_1_alg».proof.Proof.RefRun
import proofs.«158554_j82016695484547_1_alg».proof.Proof.RefRead
import proofs.«158554_j82016695484547_1_alg».proof.Proof.RefVal
import proofs.«158554_j82016695484547_1_alg».proof.Proof.SpecAlg
import proofs.«158554_j82016695484547_1_alg».proof.Proof.PreFin
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- On finite inputs both programs end with the same array: the kernel program's at the network with the matrices
    applied first, the reference's at the network with the matrices applied last, of arguments that agree. -/
theorem algebraic : Cert.algebraic_KernelIdeal_ReferenceIdeal := by
  intro m ρ m' ρ' hpre hagree
  refine ⟨fun c => Cert.KernelIdeal.Gen.W6 m ρ c (Proc.devRef .tc Cert.KernelIdeal.main_v33),
    Cert.KernelIdeal.RunV.run_value m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1,
    (hagree c).2.2.2.2.1, (hagree c).2.2.2.2.2]
  obtain ⟨h0, h2, h3, h4⟩ := Cert.Pre_finite_inputs.Fin.finite_of_pre _ _ _ _ _ _ (hpre c)
  funext i
  obtain ⟨n, j, rfl⟩ : ∃ (n : Fin 50000) (j : Fin 40), i = ix2 n j := ⟨i 0, i 1, eq_ix2 i⟩
  refine (Cert.Sage.Ref.ref_value _ _ _ _ _ _ n j).trans ?_
  refine ((congrFun (congrFun (Cert.Sage.KV_eq_RV _ _ _ _ _ _ (fun n k => h0 (ix2 n k)) (fun k j => h2 (ix2 k j))
    (fun j => h3 (ix1 j)) (fun k j => h4 (ix2 k j))) n) j).symm).trans ?_
  exact (Cert.KernelIdeal.Val.kernel_value m ρ c n j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
